-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x172 : Shape := ⟨2, ![8192, 172]⟩
abbrev S8192x50x172 : Shape := ⟨3, ![8192, 50, 172]⟩
abbrev S8192x50x100 : Shape := ⟨3, ![8192, 50, 100]⟩
abbrev S8192x50 : Shape := ⟨2, ![8192, 50]⟩
abbrev S172x444 : Shape := ⟨2, ![172, 444]⟩
abbrev S172 : Shape := ⟨1, ![172]⟩
abbrev S172x344 : Shape := ⟨2, ![172, 344]⟩
abbrev S172x172 : Shape := ⟨2, ![172, 172]⟩
abbrev S_ : Shape := ⟨0, ![]⟩

class Facts : Prop where
  bcast_S_S8192x172 : S_.BroadcastsInDim S8192x172 (![] : Fin 0 → Fin S8192x172.rank)
  reducesTo_S8192x172_S_d0_1 : S8192x172.ReducesTo [0, 1] S_
  h_S_ : 0 < S_.numel
  bcast_S_S8192x50x172 : S_.BroadcastsInDim S8192x50x172 (![] : Fin 0 → Fin S8192x50x172.rank)
  reducesTo_S8192x50x172_S_d0_1_2 : S8192x50x172.ReducesTo [0, 1, 2] S_
  bcast_S_S8192x50x100 : S_.BroadcastsInDim S8192x50x100 (![] : Fin 0 → Fin S8192x50x100.rank)
  reducesTo_S8192x50x100_S_d0_1_2 : S8192x50x100.ReducesTo [0, 1, 2] S_
  bcast_S_S8192x50 : S_.BroadcastsInDim S8192x50 (![] : Fin 0 → Fin S8192x50.rank)
  reducesTo_S8192x50_S_d0_1 : S8192x50.ReducesTo [0, 1] S_
  bcast_S_S172x444 : S_.BroadcastsInDim S172x444 (![] : Fin 0 → Fin S172x444.rank)
  reducesTo_S172x444_S_d0_1 : S172x444.ReducesTo [0, 1] S_
  bcast_S_S172 : S_.BroadcastsInDim S172 (![] : Fin 0 → Fin S172.rank)
  reducesTo_S172_S_d0 : S172.ReducesTo [0] S_
  bcast_S_S172x344 : S_.BroadcastsInDim S172x344 (![] : Fin 0 → Fin S172x344.rank)
  reducesTo_S172x344_S_d0_1 : S172x344.ReducesTo [0, 1] S_
  bcast_S_S172x172 : S_.BroadcastsInDim S172x172 (![] : Fin 0 → Fin S172x172.rank)
  reducesTo_S172x172_S_d0_1 : S172x172.ReducesTo [0, 1] S_

variable [Facts]

def fn_part3 {F : FTy → Type} [FloatOps F] (main_v48 : IVec S_ 1) (main_v49 : FVec F S172 .f32) (main_v50 : FVec F S172 .f32) : IVec S_ 1 :=
  let main_v51 : IVec S172 1 := cmpf .olt main_v49 main_v50
  let main_c_19 : IVec S_ 1 := constantI S_ 1 1#1
  let main_v52 : IVec S_ 1 := (fun x v => Host.reduce IntOp.andi x v reducesTo_S172_S_d0 h_S_) main_v51 main_c_19
  let main_v53 : IVec S_ 1 := andi main_v48 main_v52
  main_v53

def fn_part2 {F : FTy → Type} [FloatOps F] (main_arg8 : FVec F S172x344 .f32) (main_arg9 : FVec F S172 .f32) (main_arg10 : FVec F S172x172 .f32) (main_arg11 : FVec F S172 .f32) (main_v33 : IVec S_ 1) : IVec S_ 1 :=
  let main_v34 : FVec F S172x344 .f32 := Host.absf main_arg8
  let main_cst_12 : FVec F S_ .f32 := constant S_ .f32 0x7F800000#32
  let main_v35 : FVec F S172x344 .f32 := broadcastInDim S172x344 ![] bcast_S_S172x344 main_cst_12
  let main_v36 : IVec S172x344 1 := cmpf .olt main_v34 main_v35
  let main_c_13 : IVec S_ 1 := constantI S_ 1 1#1
  let main_v37 : IVec S_ 1 := (fun x v => Host.reduce IntOp.andi x v reducesTo_S172x344_S_d0_1 h_S_) main_v36 main_c_13
  let main_v38 : IVec S_ 1 := andi main_v33 main_v37
  let main_v39 : FVec F S172 .f32 := Host.absf main_arg9
  let main_cst_14 : FVec F S_ .f32 := constant S_ .f32 0x7F800000#32
  let main_v40 : FVec F S172 .f32 := broadcastInDim S172 ![] bcast_S_S172 main_cst_14
  let main_v41 : IVec S172 1 := cmpf .olt main_v39 main_v40
  let main_c_15 : IVec S_ 1 := constantI S_ 1 1#1
  let main_v42 : IVec S_ 1 := (fun x v => Host.reduce IntOp.andi x v reducesTo_S172_S_d0 h_S_) main_v41 main_c_15
  let main_v43 : IVec S_ 1 := andi main_v38 main_v42
  let main_v44 : FVec F S172x172 .f32 := Host.absf main_arg10
  let main_cst_16 : FVec F S_ .f32 := constant S_ .f32 0x7F800000#32
  let main_v45 : FVec F S172x172 .f32 := broadcastInDim S172x172 ![] bcast_S_S172x172 main_cst_16
  let main_v46 : IVec S172x172 1 := cmpf .olt main_v44 main_v45
  let main_c_17 : IVec S_ 1 := constantI S_ 1 1#1
  let main_v47 : IVec S_ 1 := (fun x v => Host.reduce IntOp.andi x v reducesTo_S172x172_S_d0_1 h_S_) main_v46 main_c_17
  let main_v48 : IVec S_ 1 := andi main_v43 main_v47
  let main_v49 : FVec F S172 .f32 := Host.absf main_arg11
  let main_cst_18 : FVec F S_ .f32 := constant S_ .f32 0x7F800000#32
  let main_v50 : FVec F S172 .f32 := broadcastInDim S172 ![] bcast_S_S172 main_cst_18
  fn_part3 (F := F) main_v48 main_v49 main_v50

def fn_part1 {F : FTy → Type} [FloatOps F] (main_arg5 : FVec F S8192x50 .f32) (main_arg6 : FVec F S172x444 .f32) (main_arg7 : FVec F S172 .f32) (main_arg8 : FVec F S172x344 .f32) (main_arg9 : FVec F S172 .f32) (main_arg10 : FVec F S172x172 .f32) (main_arg11 : FVec F S172 .f32) (main_v13 : IVec S_ 1) (main_v16 : IVec S8192x50x172 1) : IVec S_ 1 :=
  let main_c_5 : IVec S_ 1 := constantI S_ 1 1#1
  let main_v17 : IVec S_ 1 := (fun x v => Host.reduce IntOp.andi x v reducesTo_S8192x50x172_S_d0_1_2 h_S_) main_v16 main_c_5
  let main_v18 : IVec S_ 1 := andi main_v13 main_v17
  let main_v19 : FVec F S8192x50 .f32 := Host.absf main_arg5
  let main_cst_6 : FVec F S_ .f32 := constant S_ .f32 0x7F800000#32
  let main_v20 : FVec F S8192x50 .f32 := broadcastInDim S8192x50 ![] bcast_S_S8192x50 main_cst_6
  let main_v21 : IVec S8192x50 1 := cmpf .olt main_v19 main_v20
  let main_c_7 : IVec S_ 1 := constantI S_ 1 1#1
  let main_v22 : IVec S_ 1 := (fun x v => Host.reduce IntOp.andi x v reducesTo_S8192x50_S_d0_1 h_S_) main_v21 main_c_7
  let main_v23 : IVec S_ 1 := andi main_v18 main_v22
  let main_v24 : FVec F S172x444 .f32 := Host.absf main_arg6
  let main_cst_8 : FVec F S_ .f32 := constant S_ .f32 0x7F800000#32
  let main_v25 : FVec F S172x444 .f32 := broadcastInDim S172x444 ![] bcast_S_S172x444 main_cst_8
  let main_v26 : IVec S172x444 1 := cmpf .olt main_v24 main_v25
  let main_c_9 : IVec S_ 1 := constantI S_ 1 1#1
  let main_v27 : IVec S_ 1 := (fun x v => Host.reduce IntOp.andi x v reducesTo_S172x444_S_d0_1 h_S_) main_v26 main_c_9
  let main_v28 : IVec S_ 1 := andi main_v23 main_v27
  let main_v29 : FVec F S172 .f32 := Host.absf main_arg7
  let main_cst_10 : FVec F S_ .f32 := constant S_ .f32 0x7F800000#32
  let main_v30 : FVec F S172 .f32 := broadcastInDim S172 ![] bcast_S_S172 main_cst_10
  let main_v31 : IVec S172 1 := cmpf .olt main_v29 main_v30
  let main_c_11 : IVec S_ 1 := constantI S_ 1 1#1
  let main_v32 : IVec S_ 1 := (fun x v => Host.reduce IntOp.andi x v reducesTo_S172_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8192x172 .f32) (main_arg1 : FVec F S8192x50x172 .f32) (main_arg2 : FVec F S8192x50x100 .f32) (main_arg3 : FVec F S8192x50x172 .f32) (main_arg4 : IVec S8192x50 1) (main_arg5 : FVec F S8192x50 .f32) (main_arg6 : FVec F S172x444 .f32) (main_arg7 : FVec F S172 .f32) (main_arg8 : FVec F S172x344 .f32) (main_arg9 : FVec F S172 .f32) (main_arg10 : FVec F S172x172 .f32) (main_arg11 : FVec F S172 .f32) : IVec S_ 1 :=
  let main_v0 : FVec F S8192x172 .f32 := Host.absf main_arg0
  let main_cst : FVec F S_ .f32 := constant S_ .f32 0x7F800000#32
  let main_v1 : FVec F S8192x172 .f32 := broadcastInDim S8192x172 ![] bcast_S_S8192x172 main_cst
  let main_v2 : IVec S8192x172 1 := cmpf .olt main_v0 main_v1
  let main_c : IVec S_ 1 := constantI S_ 1 1#1
  let main_v3 : IVec S_ 1 := (fun x v => Host.reduce IntOp.andi x v reducesTo_S8192x172_S_d0_1 h_S_) main_v2 main_c
  let main_v4 : FVec F S8192x50x172 .f32 := Host.absf main_arg1
  let main_cst_0 : FVec F S_ .f32 := constant S_ .f32 0x7F800000#32
  let main_v5 : FVec F S8192x50x172 .f32 := broadcastInDim S8192x50x172 ![] bcast_S_S8192x50x172 main_cst_0
  let main_v6 : IVec S8192x50x172 1 := cmpf .olt main_v4 main_v5
  let main_c_1 : IVec S_ 1 := constantI S_ 1 1#1
  let main_v7 : IVec S_ 1 := (fun x v => Host.reduce IntOp.andi x v reducesTo_S8192x50x172_S_d0_1_2 h_S_) main_v6 main_c_1
  let main_v8 : IVec S_ 1 := andi main_v3 main_v7
  let main_v9 : FVec F S8192x50x100 .f32 := Host.absf main_arg2
  let main_cst_2 : FVec F S_ .f32 := constant S_ .f32 0x7F800000#32
  let main_v10 : FVec F S8192x50x100 .f32 := broadcastInDim S8192x50x100 ![] bcast_S_S8192x50x100 main_cst_2
  let main_v11 : IVec S8192x50x100 1 := cmpf .olt main_v9 main_v10
  let main_c_3 : IVec S_ 1 := constantI S_ 1 1#1
  let main_v12 : IVec S_ 1 := (fun x v => Host.reduce IntOp.andi x v reducesTo_S8192x50x100_S_d0_1_2 h_S_) main_v11 main_c_3
  let main_v13 : IVec S_ 1 := andi main_v8 main_v12
  let main_v14 : FVec F S8192x50x172 .f32 := Host.absf main_arg3
  let main_cst_4 : FVec F S_ .f32 := constant S_ .f32 0x7F800000#32
  let main_v15 : FVec F S8192x50x172 .f32 := broadcastInDim S8192x50x172 ![] bcast_S_S8192x50x172 main_cst_4
  let main_v16 : IVec S8192x50x172 1 := cmpf .olt main_v14 main_v15
  fn_part1 (F := F) main_arg5 main_arg6 main_arg7 main_arg8 main_arg9 main_arg10 main_arg11 main_v13 main_v16
-- ==== Kernel.lean ====
abbrev S8192x172 : Shape := ⟨2, ![8192, 172]⟩
abbrev S8192x50x172 : Shape := ⟨3, ![8192, 50, 172]⟩
abbrev S8192x50x100 : Shape := ⟨3, ![8192, 50, 100]⟩
abbrev S8192x50 : Shape := ⟨2, ![8192, 50]⟩
abbrev S172x444 : Shape := ⟨2, ![172, 444]⟩
abbrev S172 : Shape := ⟨1, ![172]⟩
abbrev S172x344 : Shape := ⟨2, ![172, 344]⟩
abbrev S172x172 : Shape := ⟨2, ![172, 172]⟩
abbrev S172x100 : Shape := ⟨2, ![172, 100]⟩
abbrev S100x172 : Shape := ⟨2, ![100, 172]⟩
abbrev S128x50x172 : Shape := ⟨3, ![128, 50, 172]⟩
abbrev S128x50x100 : Shape := ⟨3, ![128, 50, 100]⟩
abbrev S128x50 : Shape := ⟨2, ![128, 50]⟩
abbrev S128x172 : Shape := ⟨2, ![128, 172]⟩
abbrev S128x1x172 : Shape := ⟨3, ![128, 1, 172]⟩
abbrev S128x1x100 : Shape := ⟨3, ![128, 1, 100]⟩
abbrev S128x100 : Shape := ⟨2, ![128, 100]⟩
abbrev S1x172 : Shape := ⟨2, ![1, 172]⟩
abbrev S128x1 : Shape := ⟨2, ![128, 1]⟩
abbrev S128 : Shape := ⟨1, ![128]⟩

abbrev nBuf : Space → Nat
  | .hbm => 25
  | .vmem => 23
  | .smem => 0
  | _ => 0

abbrev bufTy : (tb : Table) → Fin (tcTables nBuf tb) → BufTy
  | .hbm, ⟨0, _⟩ => ⟨S8192x172, .f32⟩
  | .hbm, ⟨1, _⟩ => ⟨S8192x50x172, .f32⟩
  | .hbm, ⟨2, _⟩ => ⟨S8192x50x100, .f32⟩
  | .hbm, ⟨3, _⟩ => ⟨S8192x50x172, .f32⟩
  | .hbm, ⟨4, _⟩ => ⟨S8192x50, .i1⟩
  | .hbm, ⟨5, _⟩ => ⟨S8192x50, .f32⟩
  | .hbm, ⟨6, _⟩ => ⟨S172x444, .f32⟩
  | .hbm, ⟨7, _⟩ => ⟨S172, .f32⟩
  | .hbm, ⟨8, _⟩ => ⟨S172x344, .f32⟩
  | .hbm, ⟨9, _⟩ => ⟨S172, .f32⟩
  | .hbm, ⟨10, _⟩ => ⟨S172x172, .f32⟩
  | .hbm, ⟨11, _⟩ => ⟨S172, .f32⟩
  | .hbm, ⟨12, _⟩ => ⟨S172x172, .f32⟩
  | .hbm, ⟨13, _⟩ => ⟨S172x172, .f32⟩
  | .hbm, ⟨14, _⟩ => ⟨S172x172, .f32⟩
  | .hbm, ⟨15, _⟩ => ⟨S172x172, .f32⟩
  | .hbm, ⟨16, _⟩ => ⟨S172x100, .f32⟩
  | .hbm, ⟨17, _⟩ => ⟨S100x172, .f32⟩
  | .hbm, ⟨18, _⟩ => ⟨S172x172, .f32⟩
  | .hbm, ⟨19, _⟩ => ⟨S172x172, .f32⟩
  | .hbm, ⟨20, _⟩ => ⟨S172x172, .f32⟩
  | .hbm, ⟨21, _⟩ => ⟨S172x172, .f32⟩
  | .hbm, ⟨22, _⟩ => ⟨S172x172, .f32⟩
  | .hbm, ⟨23, _⟩ => ⟨S8192x50, .i32⟩
  | .hbm, ⟨24, _⟩ => ⟨S8192x172, .f32⟩
  | .local _ .vmem, ⟨0, _⟩ => ⟨S128x50x172, .f32⟩
  | .local _ .vmem, ⟨1, _⟩ => ⟨S128x50x172, .f32⟩
  | .local _ .vmem, ⟨2, _⟩ => ⟨S128x50x172, .f32⟩
  | .local _ .vmem, ⟨3, _⟩ => ⟨S128x50x172, .f32⟩
  | .local _ .vmem, ⟨4, _⟩ => ⟨S128x50x100, .f32⟩
  | .local _ .vmem, ⟨5, _⟩ => ⟨S128x50x100, .f32⟩
  | .local _ .vmem, ⟨6, _⟩ => ⟨S128x50, .i32⟩
  | .local _ .vmem, ⟨7, _⟩ => ⟨S128x50, .i32⟩
  | .local _ .vmem, ⟨8, _⟩ => ⟨S128x50, .f32⟩
  | .local _ .vmem, ⟨9, _⟩ => ⟨S128x50, .f32⟩
  | .local _ .vmem, ⟨10, _⟩ => ⟨S128x172, .f32⟩
  | .local _ .vmem, ⟨11, _⟩ => ⟨S128x172, .f32⟩
  | .local _ .vmem, ⟨12, _⟩ => ⟨S172x172, .f32⟩
  | .local _ .vmem, ⟨13, _⟩ => ⟨S172x172, .f32⟩
  | .local _ .vmem, ⟨14, _⟩ => ⟨S100x172, .f32⟩
  | .local _ .vmem, ⟨15, _⟩ => ⟨S172, .f32⟩
  | .local _ .vmem, ⟨16, _⟩ => ⟨S172x172, .f32⟩
  | .local _ .vmem, ⟨17, _⟩ => ⟨S172x172, .f32⟩
  | .local _ .vmem, ⟨18, _⟩ => ⟨S172, .f32⟩
  | .local _ .vmem, ⟨19, _⟩ => ⟨S172x172, .f32⟩
  | .local _ .vmem, ⟨20, _⟩ => ⟨S172, .f32⟩
  | .local _ .vmem, ⟨21, _⟩ => ⟨S128x172, .f32⟩
  | .local _ .vmem, ⟨22, _⟩ => ⟨S128x172, .f32⟩
  | _, _ => ⟨S8192x172, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x50x172 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50x172 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x50 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x172 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S172x172 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S172x172 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x172 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S172 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S172x172 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S172x172 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S172 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S172x172 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S172 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x172 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S172x444_S172x172_0_0 : S172x444.Slices ![0, 0] S172x172
  transposes_S172x172_S172x172_1_0 : S172x172.Transposes [1, 0] S172x172
  slices_S172x444_S172x172_0_172 : S172x444.Slices ![0, 172] S172x172
  slices_S172x444_S172x100_0_344 : S172x444.Slices ![0, 344] S172x100
  transposes_S172x100_S100x172_1_0 : S172x100.Transposes [1, 0] S100x172
  slices_S172x344_S172x172_0_0 : S172x344.Slices ![0, 0] S172x172
  slices_S172x344_S172x172_0_172 : S172x344.Slices ![0, 172] S172x172
  natLt_1_32 : 1 < 32
  inb_S172x172_S172x172_0_0 : ∀ a, (![0, 0] : Fin 2 → Nat) a + S172x172.size a ≤ S172x172.size a
  h_S172x172 : 0 < S172x172.numel
  shapeCasts_S172x172_S172x172 : S172x172.ShapeCasts S172x172
  bitsLt_bf16_f32 : FTy.bits .bf16 < FTy.bits .f32
  inb_S100x172_S100x172_0_0 : ∀ a, (![0, 0] : Fin 2 → Nat) a + S100x172.size a ≤ S100x172.size a
  h_S100x172 : 0 < S100x172.numel
  shapeCasts_S100x172_S100x172 : S100x172.ShapeCasts S100x172
  inb_S172_S172_0 : ∀ a, (![0] : Fin 1 → Nat) a + S172.size a ≤ S172.size a
  h_S172 : 0 < S172.numel
  inb_S128x50x172_S128x1x172_0_0_0 : ∀ a, (![0, 0, 0] : Fin 3 → Nat) a + S128x1x172.size a ≤ S128x50x172.size a
  h_S128x1x172 : 0 < S128x1x172.numel
  shapeCasts_S128x1x172_S128x172 : S128x1x172.ShapeCasts S128x172
  inb_S128x50x100_S128x1x100_0_0_0 : ∀ a, (![0, 0, 0] : Fin 3 → Nat) a + S128x1x100.size a ≤ S128x50x100.size a
  h_S128x1x100 : 0 < S128x1x100.numel
  shapeCasts_S128x1x100_S128x100 : S128x1x100.ShapeCasts S128x100
  shapeCasts_S172_S1x172 : S172.ShapeCasts S1x172
  broadcasts_S1x172_S128x172 : S1x172.Broadcasts S128x172
  inb_S128x50_S128x1_0_0 : ∀ a, (![0, 0] : Fin 2 → Nat) a + S128x1.size a ≤ S128x50.size a
  h_S128x1 : 0 < S128x1.numel
  shapeCasts_S128x1_S128 : S128x1.ShapeCasts S128
  shapeCasts_S128_S128x1 : S128.ShapeCasts S128x1
  broadcasts_S128x1_S128x172 : S128x1.Broadcasts S128x172
  inb_S128x50x172_S128x1x172_0_1_0 : ∀ a, (![0, 1, 0] : Fin 3 → Nat) a + S128x1x172.size a ≤ S128x50x172.size a
  inb_S128x50x100_S128x1x100_0_1_0 : ∀ a, (![0, 1, 0] : Fin 3 → Nat) a + S128x1x100.size a ≤ S128x50x100.size a
  inb_S128x50_S128x1_0_1 : ∀ a, (![0, 1] : Fin 2 → Nat) a + S128x1.size a ≤ S128x50.size a
  inb_S128x50x172_S128x1x172_0_2_0 : ∀ a, (![0, 2, 0] : Fin 3 → Nat) a + S128x1x172.size a ≤ S128x50x172.size a
  inb_S128x50x100_S128x1x100_0_2_0 : ∀ a, (![0, 2, 0] : Fin 3 → Nat) a + S128x1x100.size a ≤ S128x50x100.size a
  inb_S128x50_S128x1_0_2 : ∀ a, (![0, 2] : Fin 2 → Nat) a + S128x1.size a ≤ S128x50.size a
  inb_S128x50x172_S128x1x172_0_3_0 : ∀ a, (![0, 3, 0] : Fin 3 → Nat) a + S128x1x172.size a ≤ S128x50x172.size a
  inb_S128x50x100_S128x1x100_0_3_0 : ∀ a, (![0, 3, 0] : Fin 3 → Nat) a + S128x1x100.size a ≤ S128x50x100.size a
  inb_S128x50_S128x1_0_3 : ∀ a, (![0, 3] : Fin 2 → Nat) a + S128x1.size a ≤ S128x50.size a
  inb_S128x50x172_S128x1x172_0_4_0 : ∀ a, (![0, 4, 0] : Fin 3 → Nat) a + S128x1x172.size a ≤ S128x50x172.size a
  inb_S128x50x100_S128x1x100_0_4_0 : ∀ a, (![0, 4, 0] : Fin 3 → Nat) a + S128x1x100.size a ≤ S128x50x100.size a
  inb_S128x50_S128x1_0_4 : ∀ a, (![0, 4] : Fin 2 → Nat) a + S128x1.size a ≤ S128x50.size a
  inb_S128x50x172_S128x1x172_0_5_0 : ∀ a, (![0, 5, 0] : Fin 3 → Nat) a + S128x1x172.size a ≤ S128x50x172.size a
  inb_S128x50x100_S128x1x100_0_5_0 : ∀ a, (![0, 5, 0] : Fin 3 → Nat) a + S128x1x100.size a ≤ S128x50x100.size a
  inb_S128x50_S128x1_0_5 : ∀ a, (![0, 5] : Fin 2 → Nat) a + S128x1.size a ≤ S128x50.size a
  inb_S128x50x172_S128x1x172_0_6_0 : ∀ a, (![0, 6, 0] : Fin 3 → Nat) a + S128x1x172.size a ≤ S128x50x172.size a
  inb_S128x50x100_S128x1x100_0_6_0 : ∀ a, (![0, 6, 0] : Fin 3 → Nat) a + S128x1x100.size a ≤ S128x50x100.size a
  inb_S128x50_S128x1_0_6 : ∀ a, (![0, 6] : Fin 2 → Nat) a + S128x1.size a ≤ S128x50.size a
  inb_S128x50x172_S128x1x172_0_7_0 : ∀ a, (![0, 7, 0] : Fin 3 → Nat) a + S128x1x172.size a ≤ S128x50x172.size a
  inb_S128x50x100_S128x1x100_0_7_0 : ∀ a, (![0, 7, 0] : Fin 3 → Nat) a + S128x1x100.size a ≤ S128x50x100.size a
  inb_S128x50_S128x1_0_7 : ∀ a, (![0, 7] : Fin 2 → Nat) a + S128x1.size a ≤ S128x50.size a
  inb_S128x50x172_S128x1x172_0_8_0 : ∀ a, (![0, 8, 0] : Fin 3 → Nat) a + S128x1x172.size a ≤ S128x50x172.size a
  inb_S128x50x100_S128x1x100_0_8_0 : ∀ a, (![0, 8, 0] : Fin 3 → Nat) a + S128x1x100.size a ≤ S128x50x100.size a
  inb_S128x50_S128x1_0_8 : ∀ a, (![0, 8] : Fin 2 → Nat) a + S128x1.size a ≤ S128x50.size a
  inb_S128x50x172_S128x1x172_0_9_0 : ∀ a, (![0, 9, 0] : Fin 3 → Nat) a + S128x1x172.size a ≤ S128x50x172.size a
  inb_S128x50x100_S128x1x100_0_9_0 : ∀ a, (![0, 9, 0] : Fin 3 → Nat) a + S128x1x100.size a ≤ S128x50x100.size a
  inb_S128x50_S128x1_0_9 : ∀ a, (![0, 9] : Fin 2 → Nat) a + S128x1.size a ≤ S128x50.size a
  inb_S128x50x172_S128x1x172_0_10_0 : ∀ a, (![0, 10, 0] : Fin 3 → Nat) a + S128x1x172.size a ≤ S128x50x172.size a
  inb_S128x50x100_S128x1x100_0_10_0 : ∀ a, (![0, 10, 0] : Fin 3 → Nat) a + S128x1x100.size a ≤ S128x50x100.size a
  inb_S128x50_S128x1_0_10 : ∀ a, (![0, 10] : Fin 2 → Nat) a + S128x1.size a ≤ S128x50.size a
  inb_S128x50x172_S128x1x172_0_11_0 : ∀ a, (![0, 11, 0] : Fin 3 → Nat) a + S128x1x172.size a ≤ S128x50x172.size a
  inb_S128x50x100_S128x1x100_0_11_0 : ∀ a, (![0, 11, 0] : Fin 3 → Nat) a + S128x1x100.size a ≤ S128x50x100.size a
  inb_S128x50_S128x1_0_11 : ∀ a, (![0, 11] : Fin 2 → Nat) a + S128x1.size a ≤ S128x50.size a
  inb_S128x50x172_S128x1x172_0_12_0 : ∀ a, (![0, 12, 0] : Fin 3 → Nat) a + S128x1x172.size a ≤ S128x50x172.size a
  inb_S128x50x100_S128x1x100_0_12_0 : ∀ a, (![0, 12, 0] : Fin 3 → Nat) a + S128x1x100.size a ≤ S128x50x100.size a
  inb_S128x50_S128x1_0_12 : ∀ a, (![0, 12] : Fin 2 → Nat) a + S128x1.size a ≤ S128x50.size a
  inb_S128x50x172_S128x1x172_0_13_0 : ∀ a, (![0, 13, 0] : Fin 3 → Nat) a + S128x1x172.size a ≤ S128x50x172.size a
  inb_S128x50x100_S128x1x100_0_13_0 : ∀ a, (![0, 13, 0] : Fin 3 → Nat) a + S128x1x100.size a ≤ S128x50x100.size a
  inb_S128x50_S128x1_0_13 : ∀ a, (![0, 13] : Fin 2 → Nat) a + S128x1.size a ≤ S128x50.size a
  inb_S128x50x172_S128x1x172_0_14_0 : ∀ a, (![0, 14, 0] : Fin 3 → Nat) a + S128x1x172.size a ≤ S128x50x172.size a
  inb_S128x50x100_S128x1x100_0_14_0 : ∀ a, (![0, 14, 0] : Fin 3 → Nat) a + S128x1x100.size a ≤ S128x50x100.size a
  inb_S128x50_S128x1_0_14 : ∀ a, (![0, 14] : Fin 2 → Nat) a + S128x1.size a ≤ S128x50.size a
  inb_S128x50x172_S128x1x172_0_15_0 : ∀ a, (![0, 15, 0] : Fin 3 → Nat) a + S128x1x172.size a ≤ S128x50x172.size a
  inb_S128x50x100_S128x1x100_0_15_0 : ∀ a, (![0, 15, 0] : Fin 3 → Nat) a + S128x1x100.size a ≤ S128x50x100.size a
  inb_S128x50_S128x1_0_15 : ∀ a, (![0, 15] : Fin 2 → Nat) a + S128x1.size a ≤ S128x50.size a
  inb_S128x50x172_S128x1x172_0_16_0 : ∀ a, (![0, 16, 0] : Fin 3 → Nat) a + S128x1x172.size a ≤ S128x50x172.size a
  inb_S128x50x100_S128x1x100_0_16_0 : ∀ a, (![0, 16, 0] : Fin 3 → Nat) a + S128x1x100.size a ≤ S128x50x100.size a
  inb_S128x50_S128x1_0_16 : ∀ a, (![0, 16] : Fin 2 → Nat) a + S128x1.size a ≤ S128x50.size a
  inb_S128x50x172_S128x1x172_0_17_0 : ∀ a, (![0, 17, 0] : Fin 3 → Nat) a + S128x1x172.size a ≤ S128x50x172.size a
  inb_S128x50x100_S128x1x100_0_17_0 : ∀ a, (![0, 17, 0] : Fin 3 → Nat) a + S128x1x100.size a ≤ S128x50x100.size a
  inb_S128x50_S128x1_0_17 : ∀ a, (![0, 17] : Fin 2 → Nat) a + S128x1.size a ≤ S128x50.size a
  inb_S128x50x172_S128x1x172_0_18_0 : ∀ a, (![0, 18, 0] : Fin 3 → Nat) a + S128x1x172.size a ≤ S128x50x172.size a
  inb_S128x50x100_S128x1x100_0_18_0 : ∀ a, (![0, 18, 0] : Fin 3 → Nat) a + S128x1x100.size a ≤ S128x50x100.size a
  inb_S128x50_S128x1_0_18 : ∀ a, (![0, 18] : Fin 2 → Nat) a + S128x1.size a ≤ S128x50.size a
  inb_S128x50x172_S128x1x172_0_19_0 : ∀ a, (![0, 19, 0] : Fin 3 → Nat) a + S128x1x172.size a ≤ S128x50x172.size a
  inb_S128x50x100_S128x1x100_0_19_0 : ∀ a, (![0, 19, 0] : Fin 3 → Nat) a + S128x1x100.size a ≤ S128x50x100.size a
  inb_S128x50_S128x1_0_19 : ∀ a, (![0, 19] : Fin 2 → Nat) a + S128x1.size a ≤ S128x50.size a
  inb_S128x50x172_S128x1x172_0_20_0 : ∀ a, (![0, 20, 0] : Fin 3 → Nat) a + S128x1x172.size a ≤ S128x50x172.size a
  inb_S128x50x100_S128x1x100_0_20_0 : ∀ a, (![0, 20, 0] : Fin 3 → Nat) a + S128x1x100.size a ≤ S128x50x100.size a
  inb_S128x50_S128x1_0_20 : ∀ a, (![0, 20] : Fin 2 → Nat) a + S128x1.size a ≤ S128x50.size a
  inb_S128x50x172_S128x1x172_0_21_0 : ∀ a, (![0, 21, 0] : Fin 3 → Nat) a + S128x1x172.size a ≤ S128x50x172.size a
  inb_S128x50x100_S128x1x100_0_21_0 : ∀ a, (![0, 21, 0] : Fin 3 → Nat) a + S128x1x100.size a ≤ S128x50x100.size a
  inb_S128x50_S128x1_0_21 : ∀ a, (![0, 21] : Fin 2 → Nat) a + S128x1.size a ≤ S128x50.size a
  inb_S128x50x172_S128x1x172_0_22_0 : ∀ a, (![0, 22, 0] : Fin 3 → Nat) a + S128x1x172.size a ≤ S128x50x172.size a
  inb_S128x50x100_S128x1x100_0_22_0 : ∀ a, (![0, 22, 0] : Fin 3 → Nat) a + S128x1x100.size a ≤ S128x50x100.size a
  inb_S128x50_S128x1_0_22 : ∀ a, (![0, 22] : Fin 2 → Nat) a + S128x1.size a ≤ S128x50.size a
  inb_S128x50x172_S128x1x172_0_23_0 : ∀ a, (![0, 23, 0] : Fin 3 → Nat) a + S128x1x172.size a ≤ S128x50x172.size a
  inb_S128x50x100_S128x1x100_0_23_0 : ∀ a, (![0, 23, 0] : Fin 3 → Nat) a + S128x1x100.size a ≤ S128x50x100.size a
  inb_S128x50_S128x1_0_23 : ∀ a, (![0, 23] : Fin 2 → Nat) a + S128x1.size a ≤ S128x50.size a
  inb_S128x50x172_S128x1x172_0_24_0 : ∀ a, (![0, 24, 0] : Fin 3 → Nat) a + S128x1x172.size a ≤ S128x50x172.size a
  inb_S128x50x100_S128x1x100_0_24_0 : ∀ a, (![0, 24, 0] : Fin 3 → Nat) a + S128x1x100.size a ≤ S128x50x100.size a
  inb_S128x50_S128x1_0_24 : ∀ a, (![0, 24] : Fin 2 → Nat) a + S128x1.size a ≤ S128x50.size a
  inb_S128x50x172_S128x1x172_0_25_0 : ∀ a, (![0, 25, 0] : Fin 3 → Nat) a + S128x1x172.size a ≤ S128x50x172.size a
  inb_S128x50x100_S128x1x100_0_25_0 : ∀ a, (![0, 25, 0] : Fin 3 → Nat) a + S128x1x100.size a ≤ S128x50x100.size a
  inb_S128x50_S128x1_0_25 : ∀ a, (![0, 25] : Fin 2 → Nat) a + S128x1.size a ≤ S128x50.size a
  inb_S128x50x172_S128x1x172_0_26_0 : ∀ a, (![0, 26, 0] : Fin 3 → Nat) a + S128x1x172.size a ≤ S128x50x172.size a
  inb_S128x50x100_S128x1x100_0_26_0 : ∀ a, (![0, 26, 0] : Fin 3 → Nat) a + S128x1x100.size a ≤ S128x50x100.size a
  inb_S128x50_S128x1_0_26 : ∀ a, (![0, 26] : Fin 2 → Nat) a + S128x1.size a ≤ S128x50.size a
  inb_S128x50x172_S128x1x172_0_27_0 : ∀ a, (![0, 27, 0] : Fin 3 → Nat) a + S128x1x172.size a ≤ S128x50x172.size a
  inb_S128x50x100_S128x1x100_0_27_0 : ∀ a, (![0, 27, 0] : Fin 3 → Nat) a + S128x1x100.size a ≤ S128x50x100.size a
  inb_S128x50_S128x1_0_27 : ∀ a, (![0, 27] : Fin 2 → Nat) a + S128x1.size a ≤ S128x50.size a
  inb_S128x50x172_S128x1x172_0_28_0 : ∀ a, (![0, 28, 0] : Fin 3 → Nat) a + S128x1x172.size a ≤ S128x50x172.size a
  inb_S128x50x100_S128x1x100_0_28_0 : ∀ a, (![0, 28, 0] : Fin 3 → Nat) a + S128x1x100.size a ≤ S128x50x100.size a
  inb_S128x50_S128x1_0_28 : ∀ a, (![0, 28] : Fin 2 → Nat) a + S128x1.size a ≤ S128x50.size a
  inb_S128x50x172_S128x1x172_0_29_0 : ∀ a, (![0, 29, 0] : Fin 3 → Nat) a + S128x1x172.size a ≤ S128x50x172.size a
  inb_S128x50x100_S128x1x100_0_29_0 : ∀ a, (![0, 29, 0] : Fin 3 → Nat) a + S128x1x100.size a ≤ S128x50x100.size a
  inb_S128x50_S128x1_0_29 : ∀ a, (![0, 29] : Fin 2 → Nat) a + S128x1.size a ≤ S128x50.size a
  inb_S128x50x172_S128x1x172_0_30_0 : ∀ a, (![0, 30, 0] : Fin 3 → Nat) a + S128x1x172.size a ≤ S128x50x172.size a
  inb_S128x50x100_S128x1x100_0_30_0 : ∀ a, (![0, 30, 0] : Fin 3 → Nat) a + S128x1x100.size a ≤ S128x50x100.size a
  inb_S128x50_S128x1_0_30 : ∀ a, (![0, 30] : Fin 2 → Nat) a + S128x1.size a ≤ S128x50.size a
  inb_S128x50x172_S128x1x172_0_31_0 : ∀ a, (![0, 31, 0] : Fin 3 → Nat) a + S128x1x172.size a ≤ S128x50x172.size a
  inb_S128x50x100_S128x1x100_0_31_0 : ∀ a, (![0, 31, 0] : Fin 3 → Nat) a + S128x1x100.size a ≤ S128x50x100.size a
  inb_S128x50_S128x1_0_31 : ∀ a, (![0, 31] : Fin 2 → Nat) a + S128x1.size a ≤ S128x50.size a
  inb_S128x50x172_S128x1x172_0_32_0 : ∀ a, (![0, 32, 0] : Fin 3 → Nat) a + S128x1x172.size a ≤ S128x50x172.size a
  inb_S128x50x100_S128x1x100_0_32_0 : ∀ a, (![0, 32, 0] : Fin 3 → Nat) a + S128x1x100.size a ≤ S128x50x100.size a
  inb_S128x50_S128x1_0_32 : ∀ a, (![0, 32] : Fin 2 → Nat) a + S128x1.size a ≤ S128x50.size a
  inb_S128x50x172_S128x1x172_0_33_0 : ∀ a, (![0, 33, 0] : Fin 3 → Nat) a + S128x1x172.size a ≤ S128x50x172.size a
  inb_S128x50x100_S128x1x100_0_33_0 : ∀ a, (![0, 33, 0] : Fin 3 → Nat) a + S128x1x100.size a ≤ S128x50x100.size a
  inb_S128x50_S128x1_0_33 : ∀ a, (![0, 33] : Fin 2 → Nat) a + S128x1.size a ≤ S128x50.size a
  inb_S128x50x172_S128x1x172_0_34_0 : ∀ a, (![0, 34, 0] : Fin 3 → Nat) a + S128x1x172.size a ≤ S128x50x172.size a
  inb_S128x50x100_S128x1x100_0_34_0 : ∀ a, (![0, 34, 0] : Fin 3 → Nat) a + S128x1x100.size a ≤ S128x50x100.size a
  inb_S128x50_S128x1_0_34 : ∀ a, (![0, 34] : Fin 2 → Nat) a + S128x1.size a ≤ S128x50.size a
  inb_S128x50x172_S128x1x172_0_35_0 : ∀ a, (![0, 35, 0] : Fin 3 → Nat) a + S128x1x172.size a ≤ S128x50x172.size a
  inb_S128x50x100_S128x1x100_0_35_0 : ∀ a, (![0, 35, 0] : Fin 3 → Nat) a + S128x1x100.size a ≤ S128x50x100.size a
  inb_S128x50_S128x1_0_35 : ∀ a, (![0, 35] : Fin 2 → Nat) a + S128x1.size a ≤ S128x50.size a
  inb_S128x50x172_S128x1x172_0_36_0 : ∀ a, (![0, 36, 0] : Fin 3 → Nat) a + S128x1x172.size a ≤ S128x50x172.size a
  inb_S128x50x100_S128x1x100_0_36_0 : ∀ a, (![0, 36, 0] : Fin 3 → Nat) a + S128x1x100.size a ≤ S128x50x100.size a
  inb_S128x50_S128x1_0_36 : ∀ a, (![0, 36] : Fin 2 → Nat) a + S128x1.size a ≤ S128x50.size a
  inb_S128x50x172_S128x1x172_0_37_0 : ∀ a, (![0, 37, 0] : Fin 3 → Nat) a + S128x1x172.size a ≤ S128x50x172.size a
  inb_S128x50x100_S128x1x100_0_37_0 : ∀ a, (![0, 37, 0] : Fin 3 → Nat) a + S128x1x100.size a ≤ S128x50x100.size a
  inb_S128x50_S128x1_0_37 : ∀ a, (![0, 37] : Fin 2 → Nat) a + S128x1.size a ≤ S128x50.size a
  inb_S128x50x172_S128x1x172_0_38_0 : ∀ a, (![0, 38, 0] : Fin 3 → Nat) a + S128x1x172.size a ≤ S128x50x172.size a
  inb_S128x50x100_S128x1x100_0_38_0 : ∀ a, (![0, 38, 0] : Fin 3 → Nat) a + S128x1x100.size a ≤ S128x50x100.size a
  inb_S128x50_S128x1_0_38 : ∀ a, (![0, 38] : Fin 2 → Nat) a + S128x1.size a ≤ S128x50.size a
  inb_S128x50x172_S128x1x172_0_39_0 : ∀ a, (![0, 39, 0] : Fin 3 → Nat) a + S128x1x172.size a ≤ S128x50x172.size a
  inb_S128x50x100_S128x1x100_0_39_0 : ∀ a, (![0, 39, 0] : Fin 3 → Nat) a + S128x1x100.size a ≤ S128x50x100.size a
  inb_S128x50_S128x1_0_39 : ∀ a, (![0, 39] : Fin 2 → Nat) a + S128x1.size a ≤ S128x50.size a
  inb_S128x50x172_S128x1x172_0_40_0 : ∀ a, (![0, 40, 0] : Fin 3 → Nat) a + S128x1x172.size a ≤ S128x50x172.size a
  inb_S128x50x100_S128x1x100_0_40_0 : ∀ a, (![0, 40, 0] : Fin 3 → Nat) a + S128x1x100.size a ≤ S128x50x100.size a
  inb_S128x50_S128x1_0_40 : ∀ a, (![0, 40] : Fin 2 → Nat) a + S128x1.size a ≤ S128x50.size a
  inb_S128x50x172_S128x1x172_0_41_0 : ∀ a, (![0, 41, 0] : Fin 3 → Nat) a + S128x1x172.size a ≤ S128x50x172.size a
  inb_S128x50x100_S128x1x100_0_41_0 : ∀ a, (![0, 41, 0] : Fin 3 → Nat) a + S128x1x100.size a ≤ S128x50x100.size a
  inb_S128x50_S128x1_0_41 : ∀ a, (![0, 41] : Fin 2 → Nat) a + S128x1.size a ≤ S128x50.size a
  inb_S128x50x172_S128x1x172_0_42_0 : ∀ a, (![0, 42, 0] : Fin 3 → Nat) a + S128x1x172.size a ≤ S128x50x172.size a
  inb_S128x50x100_S128x1x100_0_42_0 : ∀ a, (![0, 42, 0] : Fin 3 → Nat) a + S128x1x100.size a ≤ S128x50x100.size a
  inb_S128x50_S128x1_0_42 : ∀ a, (![0, 42] : Fin 2 → Nat) a + S128x1.size a ≤ S128x50.size a
  inb_S128x50x172_S128x1x172_0_43_0 : ∀ a, (![0, 43, 0] : Fin 3 → Nat) a + S128x1x172.size a ≤ S128x50x172.size a
  inb_S128x50x100_S128x1x100_0_43_0 : ∀ a, (![0, 43, 0] : Fin 3 → Nat) a + S128x1x100.size a ≤ S128x50x100.size a
  inb_S128x50_S128x1_0_43 : ∀ a, (![0, 43] : Fin 2 → Nat) a + S128x1.size a ≤ S128x50.size a
  inb_S128x50x172_S128x1x172_0_44_0 : ∀ a, (![0, 44, 0] : Fin 3 → Nat) a + S128x1x172.size a ≤ S128x50x172.size a
  inb_S128x50x100_S128x1x100_0_44_0 : ∀ a, (![0, 44, 0] : Fin 3 → Nat) a + S128x1x100.size a ≤ S128x50x100.size a
  inb_S128x50_S128x1_0_44 : ∀ a, (![0, 44] : Fin 2 → Nat) a + S128x1.size a ≤ S128x50.size a
  inb_S128x50x172_S128x1x172_0_45_0 : ∀ a, (![0, 45, 0] : Fin 3 → Nat) a + S128x1x172.size a ≤ S128x50x172.size a
  inb_S128x50x100_S128x1x100_0_45_0 : ∀ a, (![0, 45, 0] : Fin 3 → Nat) a + S128x1x100.size a ≤ S128x50x100.size a
  inb_S128x50_S128x1_0_45 : ∀ a, (![0, 45] : Fin 2 → Nat) a + S128x1.size a ≤ S128x50.size a
  inb_S128x50x172_S128x1x172_0_46_0 : ∀ a, (![0, 46, 0] : Fin 3 → Nat) a + S128x1x172.size a ≤ S128x50x172.size a
  inb_S128x50x100_S128x1x100_0_46_0 : ∀ a, (![0, 46, 0] : Fin 3 → Nat) a + S128x1x100.size a ≤ S128x50x100.size a
  inb_S128x50_S128x1_0_46 : ∀ a, (![0, 46] : Fin 2 → Nat) a + S128x1.size a ≤ S128x50.size a
  inb_S128x50x172_S128x1x172_0_47_0 : ∀ a, (![0, 47, 0] : Fin 3 → Nat) a + S128x1x172.size a ≤ S128x50x172.size a
  inb_S128x50x100_S128x1x100_0_47_0 : ∀ a, (![0, 47, 0] : Fin 3 → Nat) a + S128x1x100.size a ≤ S128x50x100.size a
  inb_S128x50_S128x1_0_47 : ∀ a, (![0, 47] : Fin 2 → Nat) a + S128x1.size a ≤ S128x50.size a
  inb_S128x50x172_S128x1x172_0_48_0 : ∀ a, (![0, 48, 0] : Fin 3 → Nat) a + S128x1x172.size a ≤ S128x50x172.size a
  inb_S128x50x100_S128x1x100_0_48_0 : ∀ a, (![0, 48, 0] : Fin 3 → Nat) a + S128x1x100.size a ≤ S128x50x100.size a
  inb_S128x50_S128x1_0_48 : ∀ a, (![0, 48] : Fin 2 → Nat) a + S128x1.size a ≤ S128x50.size a
  inb_S128x50x172_S128x1x172_0_49_0 : ∀ a, (![0, 49, 0] : Fin 3 → Nat) a + S128x1x172.size a ≤ S128x50x172.size a
  inb_S128x50x100_S128x1x100_0_49_0 : ∀ a, (![0, 49, 0] : Fin 3 → Nat) a + S128x1x100.size a ≤ S128x50x100.size a
  inb_S128x50_S128x1_0_49 : ∀ a, (![0, 49] : Fin 2 → Nat) a + S128x1.size a ≤ S128x50.size a
  inb_S128x172_S128x172_0_0 : ∀ a, (![0, 0] : Fin 2 → Nat) a + S128x172.size a ≤ S128x172.size a
  h_S128x172 : 0 < S128x172.numel
  dot_S128x172_S172x172_S128x172_1_0_0_1_n_n_wf : DotDims.WF S128x172 S172x172 S128x172 [1] [0] [0] [1] [] []
  dot_S128x100_S100x172_S128x172_1_0_0_1_n_n_wf : DotDims.WF S128x100 S100x172 S128x172 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50x172.size a ≤ S8192x50x172.size a
  hwx0_0 : ∀ i : grid0.Coords, EltTy.bits .f32 = 32 ∨ (Rect.block (s := S8192x50x172) S128x50x172.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50x172.size a ≤ S8192x50x172.size a
  hwx0_1 : ∀ i : grid0.Coords, EltTy.bits .f32 = 32 ∨ (Rect.block (s := S8192x50x172) S128x50x172.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x50x100.size a ≤ S8192x50x100.size a
  hwx0_2 : ∀ i : grid0.Coords, EltTy.bits .f32 = 32 ∨ (Rect.block (s := S8192x50x100) S128x50x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x50.size a ≤ S8192x50.size a
  hwx0_3 : ∀ i : grid0.Coords, EltTy.bits .i32 = 32 ∨ (Rect.block (s := S8192x50) S128x50.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x50.size a ≤ S8192x50.size a
  hwx0_4 : ∀ i : grid0.Coords, EltTy.bits .f32 = 32 ∨ (Rect.block (s := S8192x50) S128x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x172.size a ≤ S8192x172.size a
  hwx0_5 : ∀ i : grid0.Coords, EltTy.bits .f32 = 32 ∨ (Rect.block (s := S8192x172) S128x172.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S172x172.size a ≤ S172x172.size a
  hwx0_6 : ∀ i : grid0.Coords, EltTy.bits .f32 = 32 ∨ (Rect.block (s := S172x172) S172x172.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S172x172.size a ≤ S172x172.size a
  hwx0_7 : ∀ i : grid0.Coords, EltTy.bits .f32 = 32 ∨ (Rect.block (s := S172x172) S172x172.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x172.size a ≤ S100x172.size a
  hwx0_8 : ∀ i : grid0.Coords, EltTy.bits .f32 = 32 ∨ (Rect.block (s := S100x172) S100x172.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S172.size a ≤ S172.size a
  hwx0_9 : ∀ i : grid0.Coords, EltTy.bits .f32 = 32 ∨ (Rect.block (s := S172) S172.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S172x172.size a ≤ S172x172.size a
  hwx0_10 : ∀ i : grid0.Coords, EltTy.bits .f32 = 32 ∨ (Rect.block (s := S172x172) S172x172.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S172x172.size a ≤ S172x172.size a
  hwx0_11 : ∀ i : grid0.Coords, EltTy.bits .f32 = 32 ∨ (Rect.block (s := S172x172) S172x172.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S172.size a ≤ S172.size a
  hwx0_12 : ∀ i : grid0.Coords, EltTy.bits .f32 = 32 ∨ (Rect.block (s := S172) S172.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S172x172.size a ≤ S172x172.size a
  hwx0_13 : ∀ i : grid0.Coords, EltTy.bits .f32 = 32 ∨ (Rect.block (s := S172x172) S172x172.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S172.size a ≤ S172.size a
  hwx0_14 : ∀ i : grid0.Coords, EltTy.bits .f32 = 32 ∨ (Rect.block (s := S172) S172.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x172.size a ≤ S8192x172.size a
  hwx0_15 : ∀ i : grid0.Coords, EltTy.bits .f32 = 32 ∨ (Rect.block (s := S8192x172) S128x172.size (cc0_transform_15 i) (hinb0_15 i)).WholeWords (EltTy.packing .f32)

variable [Facts₀]

def dot_S128x172_S172x172_S128x172_1_0_0_1_n_n : DotDims S128x172 S172x172 S128x172 where
  lhsContracting := [1]
  rhsContracting := [0]
  lhsNonContracting := [0]
  rhsNonContracting := [1]
  lhsBatch := []
  rhsBatch := []
  wf := dot_S128x172_S172x172_S128x172_1_0_0_1_n_n_wf
def dot_S128x100_S100x172_S128x172_1_0_0_1_n_n : DotDims S128x100 S100x172 S128x172 where
  lhsContracting := [1]
  rhsContracting := [0]
  lhsNonContracting := [0]
  rhsNonContracting := [1]
  lhsBatch := []
  rhsBatch := []
  wf := dot_S128x100_S100x172_S128x172_1_0_0_1_n_n_wf

abbrev win0_0 : Pipeline.Window sig grid0 :=
  Pipeline.Window.ofSpec (Memref.whole main_arg1) S128x50x172.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x50x172.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x50x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x50.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x50.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S128x172.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S172x172.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S172x172.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S100x172.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S172.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S172x172.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S172x172.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S172.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S172x172.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S172.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S128x172.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x172 : Shape := ⟨2, ![8192, 172]⟩
abbrev S8192x50x172 : Shape := ⟨3, ![8192, 50, 172]⟩
abbrev S8192x50x100 : Shape := ⟨3, ![8192, 50, 100]⟩
abbrev S8192x50 : Shape := ⟨2, ![8192, 50]⟩
abbrev S172x444 : Shape := ⟨2, ![172, 444]⟩
abbrev S172 : Shape := ⟨1, ![172]⟩
abbrev S172x344 : Shape := ⟨2, ![172, 344]⟩
abbrev S172x172 : Shape := ⟨2, ![172, 172]⟩
abbrev S8192x50x444 : Shape := ⟨3, ![8192, 50, 444]⟩
abbrev S1x1x172 : Shape := ⟨3, ![1, 1, 172]⟩
abbrev S8192x50x1 : Shape := ⟨3, ![8192, 50, 1]⟩
abbrev S_ : Shape := ⟨0, ![]⟩
abbrev S8192x344 : Shape := ⟨2, ![8192, 344]⟩
abbrev S344x172 : Shape := ⟨2, ![344, 172]⟩
abbrev S1x172 : Shape := ⟨2, ![1, 172]⟩

abbrev nBuf : Space → Nat
  | .hbm => 44
  | .vmem => 0
  | .smem => 0
  | _ => 0

abbrev bufTy : (tb : Table) → Fin (tcTables nBuf tb) → BufTy
  | .hbm, ⟨0, _⟩ => ⟨S8192x172, .f32⟩
  | .hbm, ⟨1, _⟩ => ⟨S8192x50x172, .f32⟩
  | .hbm, ⟨2, _⟩ => ⟨S8192x50x100, .f32⟩
  | .hbm, ⟨3, _⟩ => ⟨S8192x50x172, .f32⟩
  | .hbm, ⟨4, _⟩ => ⟨S8192x50, .i1⟩
  | .hbm, ⟨5, _⟩ => ⟨S8192x50, .f32⟩
  | .hbm, ⟨6, _⟩ => ⟨S172x444, .f32⟩
  | .hbm, ⟨7, _⟩ => ⟨S172, .f32⟩
  | .hbm, ⟨8, _⟩ => ⟨S172x344, .f32⟩
  | .hbm, ⟨9, _⟩ => ⟨S172, .f32⟩
  | .hbm, ⟨10, _⟩ => ⟨S172x172, .f32⟩
  | .hbm, ⟨11, _⟩ => ⟨S172, .f32⟩
  | .hbm, ⟨12, _⟩ => ⟨S8192x50x444, .f32⟩
  | .hbm, ⟨13, _⟩ => ⟨S8192x50x172, .f32⟩
  | .hbm, ⟨14, _⟩ => ⟨S1x1x172, .f32⟩
  | .hbm, ⟨15, _⟩ => ⟨S8192x50x172, .f32⟩
  | .hbm, ⟨16, _⟩ => ⟨S8192x50x172, .f32⟩
  | .hbm, ⟨17, _⟩ => ⟨S8192x50, .i1⟩
  | .hbm, ⟨18, _⟩ => ⟨S8192x50, .f32⟩
  | .hbm, ⟨19, _⟩ => ⟨S8192x50x1, .f32⟩
  | .hbm, ⟨20, _⟩ => ⟨S8192x50x172, .f32⟩
  | .hbm, ⟨21, _⟩ => ⟨S8192x50x172, .f32⟩
  | .hbm, ⟨22, _⟩ => ⟨S8192x50x1, .f32⟩
  | .hbm, ⟨23, _⟩ => ⟨S8192x50x172, .f32⟩
  | .hbm, ⟨24, _⟩ => ⟨S8192x50x172, .f32⟩
  | .hbm, ⟨25, _⟩ => ⟨S_, .f32⟩
  | .hbm, ⟨26, _⟩ => ⟨S8192x50x172, .f32⟩
  | .hbm, ⟨27, _⟩ => ⟨S8192x50x172, .f32⟩
  | .hbm, ⟨28, _⟩ => ⟨S_, .f32⟩
  | .hbm, ⟨29, _⟩ => ⟨S8192x172, .f32⟩
  | .hbm, ⟨30, _⟩ => ⟨S8192x344, .f32⟩
  | .hbm, ⟨31, _⟩ => ⟨S344x172, .f32⟩
  | .hbm, ⟨32, _⟩ => ⟨S8192x172, .f32⟩
  | .hbm, ⟨33, _⟩ => ⟨S1x172, .f32⟩
  | .hbm, ⟨34, _⟩ => ⟨S8192x172, .f32⟩
  | .hbm, ⟨35, _⟩ => ⟨S8192x172, .f32⟩
  | .hbm, ⟨36, _⟩ => ⟨S_, .f32⟩
  | .hbm, ⟨37, _⟩ => ⟨S8192x172, .f32⟩
  | .hbm, ⟨38, _⟩ => ⟨S8192x172, .f32⟩
  | .hbm, ⟨39, _⟩ => ⟨S172x172, .f32⟩
  | .hbm, ⟨40, _⟩ => ⟨S8192x172, .f32⟩
  | .hbm, ⟨41, _⟩ => ⟨S1x172, .f32⟩
  | .hbm, ⟨42, _⟩ => ⟨S8192x172, .f32⟩
  | .hbm, ⟨43, _⟩ => ⟨S8192x172, .f32⟩
  | _, _ => ⟨S8192x172, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  concatenates_S8192x50x172_S8192x50x172_S8192x50x100_S8192x50x444_d2 : Shape.Concatenates [S8192x50x172, S8192x50x172, S8192x50x100] S8192x50x444 2
  bcast_S172_S1x1x172_2 : S172.BroadcastsInDim S1x1x172 (![2] : Fin 1 → Fin S1x1x172.rank)
  bcast_S1x1x172_S8192x50x172_0_1_2 : S1x1x172.BroadcastsInDim S8192x50x172 (![0, 1, 2] : Fin 3 → Fin S8192x50x172.rank)
  bcast_S8192x50_S8192x50x1_0_1 : S8192x50.BroadcastsInDim S8192x50x1 (![0, 1] : Fin 2 → Fin S8192x50x1.rank)
  bcast_S8192x50x1_S8192x50x172_0_1_2 : S8192x50x1.BroadcastsInDim S8192x50x172 (![0, 1, 2] : Fin 3 → Fin S8192x50x172.rank)
  bcast_S_S8192x50x172 : S_.BroadcastsInDim S8192x50x172 (![] : Fin 0 → Fin S8192x50x172.rank)
  reducesTo_S8192x50x172_S8192x172_d1 : S8192x50x172.ReducesTo [1] S8192x172
  h_S_ : 0 < S_.numel
  concatenates_S8192x172_S8192x172_S8192x344_d1 : Shape.Concatenates [S8192x172, S8192x172] S8192x344 1
  transposes_S172x344_S344x172_1_0 : S172x344.Transposes [1, 0] S344x172
  bcast_S172_S1x172_1 : S172.BroadcastsInDim S1x172 (![1] : Fin 1 → Fin S1x172.rank)
  bcast_S1x172_S8192x172_0_1 : S1x172.BroadcastsInDim S8192x172 (![0, 1] : Fin 2 → Fin S8192x172.rank)
  bcast_S_S8192x172 : S_.BroadcastsInDim S8192x172 (![] : Fin 0 → Fin S8192x172.rank)
  transposes_S172x172_S172x172_1_0 : S172x172.Transposes [1, 0] S172x172
  dot_S8192x50x444_S172x444_S8192x50x172_2_1_01_0_n_n_wf : DotDims.WF S8192x50x444 S172x444 S8192x50x172 [2] [1] [0, 1] [0] [] []
  dot_S8192x344_S344x172_S8192x172_1_0_0_1_n_n_wf : DotDims.WF S8192x344 S344x172 S8192x172 [1] [0] [0] [1] [] []
  dot_S8192x172_S172x172_S8192x172_1_0_0_1_n_n_wf : DotDims.WF S8192x172 S172x172 S8192x172 [1] [0] [0] [1] [] []

variable [Facts₀]

def dot_S8192x50x444_S172x444_S8192x50x172_2_1_01_0_n_n : DotDims S8192x50x444 S172x444 S8192x50x172 where
  lhsContracting := [2]
  rhsContracting := [1]
  lhsNonContracting := [0, 1]
  rhsNonContracting := [0]
  lhsBatch := []
  rhsBatch := []
  wf := dot_S8192x50x444_S172x444_S8192x50x172_2_1_01_0_n_n_wf
def dot_S8192x344_S344x172_S8192x172_1_0_0_1_n_n : DotDims S8192x344 S344x172 S8192x172 where
  lhsContracting := [1]
  rhsContracting := [0]
  lhsNonContracting := [0]
  rhsNonContracting := [1]
  lhsBatch := []
  rhsBatch := []
  wf := dot_S8192x344_S344x172_S8192x172_1_0_0_1_n_n_wf
def dot_S8192x172_S172x172_S8192x172_1_0_0_1_n_n : DotDims S8192x172 S172x172 S8192x172 where
  lhsContracting := [1]
  rhsContracting := [0]
  lhsNonContracting := [0]
  rhsNonContracting := [1]
  lhsBatch := []
  rhsBatch := []
  wf := dot_S8192x172_S172x172_S8192x172_1_0_0_1_n_n_wf

class Facts : Prop extends Facts₀ where

variable [Facts]
-- ==== Proof.KBody.lean ====
/-
  The kernel body's arithmetic as a recurrence over the fifty neighbours.

  For a tile of 128 batch rows the body keeps a running maximum `pooled` (128 × 172), started at −∞. For neighbour
  `n` it reads row `n` of the three feature blocks, forms
      h_n = x_n · Wnᵀ + e_n · Weᵀ + t_n · Wtᵀ + b_t            (three products on the matrix unit and a bias row),
  scales each batch row by  w_n · valid_n  (`valid_n` is 1 where the padding mask's word is zero, else 0), clamps at
  zero and folds it into `pooled` by an elementwise maximum. After the fifty neighbours the merge layer follows:
      out = max (pooled · W1pᵀ + src · W1sᵀ + b1, 0) · W2ᵀ + b2.
  The printed body spells the fifty steps out one after the other; here the step is ONE function of the neighbour's
  number and the body is its fold over 0, …, 49. The two texts are the same term once the definitions are opened.
-/
import proofs.«142474_j76166950028261_1_alg».proof.Proof.Gen.KernelIdeal.Frame

noncomputable section

namespace Cert.KernelIdeal.Body

open Cert.KernelIdeal Cert.KernelIdeal.Gen Idealize.ShloMosaic Idealize.SL.Sem

variable {F : FTy → Type} [FloatOps F]

/-- Row `n` of a 128 × 50 × 172 feature block: the rectangle the body loads for neighbour `n`. -/
abbrev row172 (n : Fin 50) : Rect S128x50x172 :=
  Rect.unit (s := S128x50x172) ![0, n.val, 0] S128x1x172.size (fun a => by
    match a with
    | ⟨0, _⟩ => exact Nat.le_refl _
    | ⟨1, _⟩ => exact n.isLt
    | ⟨2, _⟩ => exact Nat.le_refl _)

/-- Row `n` of the 128 × 50 × 100 time-feature block. -/
abbrev row100 (n : Fin 50) : Rect S128x50x100 :=
  Rect.unit (s := S128x50x100) ![0, n.val, 0] S128x1x100.size (fun a => by
    match a with
    | ⟨0, _⟩ => exact Nat.le_refl _
    | ⟨1, _⟩ => exact n.isLt
    | ⟨2, _⟩ => exact Nat.le_refl _)

/-- Column `n` of a 128 × 50 block (the mask's words, the weights). -/
abbrev col (n : Fin 50) : Rect S128x50 :=
  Rect.unit (s := S128x50) ![0, n.val] S128x1.size (fun a => by
    match a with
    | ⟨0, _⟩ => exact Nat.le_refl _
    | ⟨1, _⟩ => exact n.isLt)

/-- A weight block as the matrix unit takes it. -/
def asMxu172 (w : Vec F S172x172 .f32) : FVec F S172x172 .bf16 :=
  truncf .bf16 (shapeCast S172x172 w shapeCasts_S172x172_S172x172) bitsLt_bf16_f32

def asMxu100 (w : Vec F S100x172 .f32) : FVec F S100x172 .bf16 :=
  truncf .bf16 (shapeCast S100x172 w shapeCasts_S100x172_S100x172) bitsLt_bf16_f32

/-- A bias row laid over the tile's 128 rows. -/
def biasRows (b : Vec F S172 .f32) : FVec F S128x172 .f32 :=
  broadcastTo S128x172 (shapeCast S1x172 b shapeCasts_S172_S1x172) broadcasts_S1x172_S128x172

/-- `h_n`: one neighbour's features through the three weight blocks, plus the bias. -/
def affine (wn we : FVec F S172x172 .bf16) (wt : FVec F S100x172 .bf16) (bt : Vec F S172 .f32)
    (xn en : Vec F S128x1x172 .f32) (tn : Vec F S128x1x100 .f32) : FVec F S128x172 .f32 :=
  addf (addf (addf
      (matmul dot_S128x172_S172x172_S128x172_1_0_0_1_n_n none
        (truncf .bf16 (shapeCast S128x172 xn shapeCasts_S128x1x172_S128x172) bitsLt_bf16_f32) wn (constant S128x172 .f32 0x00000000#32))
      (matmul dot_S128x172_S172x172_S128x172_1_0_0_1_n_n none
        (truncf .bf16 (shapeCast S128x172 en shapeCasts_S128x1x172_S128x172) bitsLt_bf16_f32) we (constant S128x172 .f32 0x00000000#32)))
      (matmul dot_S128x100_S100x172_S128x172_1_0_0_1_n_n none
        (truncf .bf16 (shapeCast S128x100 tn shapeCasts_S128x1x100_S128x100) bitsLt_bf16_f32) wt (constant S128x172 .f32 0x00000000#32)))
    (biasRows bt)

/-- `valid_n` per batch row: 1 where the mask's word is zero. -/
def validOf (mk : Vec F S128x1 .i32) : FVec F S128 .f32 :=
  sitofp .f32 (extui 32 (xori (cmpi .ne (shapeCast S128 mk shapeCasts_S128x1_S128) (constantI S128 32 0#32)) (constantI S128 1 1#1)) natLt_1_32)

/-- `w_n · valid_n` per batch row, laid over the 172 columns. -/
def gate (mk : Vec F S128x1 .i32) (wg : Vec F S128x1 .f32) : FVec F S128x172 .f32 :=
  broadcastTo S128x172 (shapeCast S128x1 (mulf (shapeCast S128 wg shapeCasts_S128x1_S128) (validOf mk)) shapeCasts_S128_S128x1) broadcasts_S128x1_S128x172

/-- One neighbour folded into the running maximum. -/
def step (wn we : FVec F S172x172 .bf16) (wt : FVec F S100x172 .bf16) (bt : Vec F S172 .f32)
    (x0 x1 : Vec F S128x50x172 .f32) (x2 : Vec F S128x50x100 .f32) (x3 : Vec F S128x50 .i32) (x4 : Vec F S128x50 .f32)
    (acc : FVec F S128x172 .f32) (n : Fin 50) : FVec F S128x172 .f32 :=
  maximumf acc (maximumf
    (mulf (affine wn we wt bt (View.ld x0 (row172 n)) (View.ld x1 (row172 n)) (View.ld x2 (row100 n)))
      (gate (View.ld x3 (col n)) (View.ld x4 (col n))))
    (broadcast S128x172 (Scalar.ofBits .f32 0x00000000#32)))

/-- The fifty neighbours, in the body's order. -/
def nbrs : List (Fin 50) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49]

/-- The running maximum after all fifty neighbours. -/
def pooled (x0 x1 : Vec F S128x50x172 .f32) (x2 : Vec F S128x50x100 .f32) (x3 : Vec F S128x50 .i32) (x4 : Vec F S128x50 .f32)
    (x6 x7 : Vec F S172x172 .f32) (x8 : Vec F S100x172 .f32) (x9 : Vec F S172 .f32) : FVec F S128x172 .f32 :=
  nbrs.foldl (step (asMxu172 (View.ld x6 r0_0)) (asMxu172 (View.ld x7 r0_0)) (asMxu100 (View.ld x8 r0_1)) (View.ld x9 r0_2) x0 x1 x2 x3 x4)
    (broadcast S128x172 (Scalar.ofBits .f32 0xFF800000#32))

/-- The merge layer over the pooled tile: what the body stores. -/
def merge (p : FVec F S128x172 .f32) (src : Vec F S128x172 .f32) (w1p w1s : Vec F S172x172 .f32) (b1 : Vec F S172 .f32)
    (w2 : Vec F S172x172 .f32) (b2 : Vec F S172 .f32) : FVec F S128x172 .f32 :=
  addf (matmul dot_S128x172_S172x172_S128x172_1_0_0_1_n_n none
      (truncf .bf16 (maximumf
        (addf (addf
            (matmul dot_S128x172_S172x172_S128x172_1_0_0_1_n_n none (truncf .bf16 p bitsLt_bf16_f32) (asMxu172 w1p) (constant S128x172 .f32 0x00000000#32))
            (matmul dot_S128x172_S172x172_S128x172_1_0_0_1_n_n none (truncf .bf16 src bitsLt_bf16_f32) (asMxu172 w1s) (constant S128x172 .f32 0x00000000#32)))
          (biasRows b1))
        (broadcast S128x172 (Scalar.ofBits .f32 0x00000000#32))) bitsLt_bf16_f32)
      (asMxu172 w2) (constant S128x172 .f32 0x00000000#32))
    (biasRows b2)

/-- The body's stored value from the tile's fifteen input blocks. -/
def stored (x0 x1 : Vec F S128x50x172 .f32) (x2 : Vec F S128x50x100 .f32) (x3 : Vec F S128x50 .i32) (x4 : Vec F S128x50 .f32)
    (x5 : Vec F S128x172 .f32) (x6 x7 : Vec F S172x172 .f32) (x8 : Vec F S100x172 .f32) (x9 : Vec F S172 .f32)
    (x10 x11 : Vec F S172x172 .f32) (x12 : Vec F S172 .f32) (x13 : Vec F S172x172 .f32) (x14 : Vec F S172 .f32) : FVec F S128x172 .f32 :=
  merge (pooled x0 x1 x2 x3 x4 x6 x7 x8 x9) (View.ld x5 r0_153) (View.ld x10 r0_0) (View.ld x11 r0_0) (View.ld x12 r0_2)
    (View.ld x13 r0_0) (View.ld x14 r0_2)

set_option maxRecDepth 65536 in
/-- The printed body's one store, its fifty steps written out, is the fold. -/
theorem out_eq_stored (x0 x1 : Vec F S128x50x172 .f32) (x2 : Vec F S128x50x100 .f32) (x3 : Vec F S128x50 .i32) (x4 : Vec F S128x50 .f32)
    (x5 : Vec F S128x172 .f32) (x6 x7 : Vec F S172x172 .f32) (x8 : Vec F S100x172 .f32) (x9 : Vec F S172 .f32)
    (x10 x11 : Vec F S172x172 .f32) (x12 : Vec F S172 .f32) (x13 : Vec F S172x172 .f32) (x14 : Vec F S172 .f32) :
    out0_15 x0 x1 x2 x3 x4 x5 x6 x7 x8 x9 x10 x11 x12 x13 x14
      = View.canon [⟨r0_153, stored x0 x1 x2 x3 x4 x5 x6 x7 x8 x9 x10 x11 x12 x13 x14⟩] := rfl

end Cert.KernelIdeal.Body

end
-- ==== Proof.RowSpec.lean ====
/-
  The value both programs compute for ONE batch row, and the algebra that joins their two spellings.

  A row has fifty neighbours. Neighbour `n` carries node features `X n`, edge features `E n` (172 each) and time
  features `T n` (100), a validity factor `vl n` (1 where the padding mask is clear, 0 where it is set) and a weight
  `wg n`. With the transform's weight cut into its column runs `Wn`, `We` (172 × 172) and `Wm` (172 × 100), its bias
  `bt`, the first merge weight cut into `W1p`, `W1s` (172 × 172), `b1`, `W2` (172 × 172) and `b2` the row's result is
      lin n j  = Σ_k X n k · Wn j k + Σ_k E n k · We j k + Σ_k T n k · Wm j k + bt j
      act n j  = max (lin n j · (wg n · vl n)) 0
      pool j   = max over the fifty n of act n j   (from −∞)
      mid k    = max (Σ_j pool j · W1p k j + Σ_j src j · W1s k j + b1 k) 0
      out d    = Σ_k mid k · W2 d k + b2 d.
  The kernel spells the contractions in runs (172 + 172 + 100, and 172 + 172) and scales by the product
  `wg n · vl n`; the reference contracts once over the concatenated axis (444, and 344) and scales by `wg n` and then by
  `vl n`. On the extended reals a finite sum may be cut into runs (addition is commutative and associative there) and a
  product re-associated (multiplication is), so the two spellings are one value: no finiteness is used.
-/
import Idealize.ShloMosaic.PureOps.Ideal.Laws
import Idealize.ShloMosaic.Lib.ValueIdx

noncomputable section

namespace Cert.RowSpec

open Idealize.ShloMosaic

/-! ## A sum over a concatenated axis, cut into its runs -/

theorem lt444_0 (k : Fin 172) : k.val < 444 := by have := k.isLt; omega
theorem lt444_1 (k : Fin 172) : 172 + k.val < 444 := by have := k.isLt; omega
theorem lt444_2 (k : Fin 100) : 344 + k.val < 444 := by have := k.isLt; omega
theorem lt344_0 (k : Fin 172) : k.val < 344 := by have := k.isLt; omega
theorem lt344_1 (k : Fin 172) : 172 + k.val < 344 := by have := k.isLt; omega

/-- A sum over 444 = 172 + 172 + 100 positions is the sum of its three runs. -/
theorem sum_fin444 {M : Type} [AddCommMonoid M] (f : Fin 444 → M) :
    ∑ k, f k = ((∑ k : Fin 172, f ⟨k.val, lt444_0 k⟩) + ∑ k : Fin 172, f ⟨172 + k.val, lt444_1 k⟩)
      + ∑ k : Fin 100, f ⟨344 + k.val, lt444_2 k⟩ :=
  (Fin.sum_univ_add (a := 344) (b := 100) f).trans
    (congrArg (· + ∑ k : Fin 100, f ⟨344 + k.val, lt444_2 k⟩)
      (Fin.sum_univ_add (a := 172) (b := 172) fun i => f (Fin.castAdd 100 i)))

/-- A sum over 344 = 172 + 172 positions is the sum of its two runs. -/
theorem sum_fin344 {M : Type} [AddCommMonoid M] (f : Fin 344 → M) :
    ∑ k, f k = (∑ k : Fin 172, f ⟨k.val, lt344_0 k⟩) + ∑ k : Fin 172, f ⟨172 + k.val, lt344_1 k⟩ :=
  Fin.sum_univ_add (a := 172) (b := 172) f

/-! ## A running maximum over a list that names every neighbour -/

/-- A left fold of `max` is below `c` exactly when its start and every term are. -/
theorem foldl_max_le_iff {ι : Type} (g : ι → EReal) (c : EReal) :
    ∀ (l : List ι) (b : EReal), l.foldl (fun a n => max a (g n)) b ≤ c ↔ b ≤ c ∧ ∀ n ∈ l, g n ≤ c
  | [], b => by simp
  | n :: l, b => by
    rw [List.foldl_cons, foldl_max_le_iff g c l, max_le_iff]
    constructor
    · rintro ⟨⟨hb, hn⟩, hl⟩
      exact ⟨hb, fun k hk => by
        rcases List.mem_cons.mp hk with rfl | hk
        · exact hn
        · exact hl k hk⟩
    · rintro ⟨hb, hl⟩
      exact ⟨⟨hb, hl n (List.mem_cons_self ..)⟩, fun k hk => hl k (List.mem_cons_of_mem _ hk)⟩

/-- Folding `max` from −∞ along a list that names every index is the maximum over the index type. -/
theorem foldl_max_eq_fold {ι : Type} [Fintype ι] (g : ι → EReal) (l : List ι) (hl : ∀ n, n ∈ l) :
    l.foldl (fun a n => max a (g n)) ⊥ = (Finset.univ : Finset ι).fold max ⊥ g :=
  eq_of_forall_ge_iff fun c => by
    rw [foldl_max_le_iff, Finset.fold_max_le]
    exact ⟨fun h => ⟨h.1, fun n _ => h.2 n (hl n)⟩, fun h => ⟨h.1, fun n _ => h.2 n (Finset.mem_univ n)⟩⟩

/-- A fold of pointwise steps, read at one position, is the fold of that position's steps. -/
theorem foldl_apply {ι κ : Type} (g : ι → EReal) (step : (κ → EReal) → ι → (κ → EReal)) (j : κ)
    (hstep : ∀ acc n, step acc n j = max (acc j) (g n)) :
    ∀ (l : List ι) (init : κ → EReal), l.foldl step init j = l.foldl (fun a n => max a (g n)) (init j)
  | [], init => rfl
  | n :: l, init => by
    rw [List.foldl_cons, List.foldl_cons, foldl_apply g step j hstep l, hstep]

/-! ## The validity factor, from a mask bit and from the mask's word -/

/-- The reference's factor: the negated mask bit as a number. -/
def validOfBit (b : BitVec 1) : EReal := (((~~~b).toNat : ℝ) : EReal)

/-- The kernel's factor: "the word is not zero", negated, widened, as a signed number. -/
def validOfWord (w : BitVec 32) : EReal :=
  ((((IntOp.xori (IntOp.cmpi .ne w 0#32) 1#1).setWidth 32).toInt : ℝ) : EReal)

/-- On a mask bit widened to a word the two agree. -/
theorem validOfWord_setWidth (b : BitVec 1) : validOfWord (b.setWidth 32) = validOfBit b := by
  have hb : b = 0#1 ∨ b = 1#1 := by
    have : ∀ b : BitVec 1, b = 0#1 ∨ b = 1#1 := by decide
    exact this b
  rcases hb with rfl | rfl
  · have e1 : ((IntOp.xori (IntOp.cmpi .ne ((0#1 : BitVec 1).setWidth 32) 0#32) 1#1).setWidth 32).toInt = 1 := by decide
    have e2 : (~~~(0#1 : BitVec 1)).toNat = 1 := by decide
    rw [validOfWord, validOfBit, e1, e2]; norm_num
  · have e1 : ((IntOp.xori (IntOp.cmpi .ne ((1#1 : BitVec 1).setWidth 32) 0#32) 1#1).setWidth 32).toInt = 0 := by decide
    have e2 : (~~~(1#1 : BitVec 1)).toNat = 0 := by decide
    rw [validOfWord, validOfBit, e1, e2]; norm_num

/-! ## Two float words -/

/-- The f32 pattern `0xFF800000` is −∞. -/
theorem ofBits_neg_inf : Ideal.ofBits .f32 0xFF800000#32 = ⊥ := by
  simp [Ideal.ofBits, Ideal.ieee]

/-! ## One row's result -/

section Row

variable (X E : Fin 50 → Fin 172 → EReal) (T : Fin 50 → Fin 100 → EReal) (vl wg : Fin 50 → EReal) (src : Fin 172 → EReal)
  (Wn We : Fin 172 → Fin 172 → EReal) (Wm : Fin 172 → Fin 100 → EReal) (bt : Fin 172 → EReal)
  (W1p W1s : Fin 172 → Fin 172 → EReal) (b1 : Fin 172 → EReal) (W2 : Fin 172 → Fin 172 → EReal) (b2 : Fin 172 → EReal)

/-- Neighbour `n`'s transform at output feature `j`, the contraction in its three runs (`Wn j`, `We j`, `Wm j`:
    row `j` of the transform's weight, cut at 172 and 344). -/
def lin (n : Fin 50) (j : Fin 172) : EReal :=
  (((∑ k : Fin 172, X n k * Wn j k) + ∑ k : Fin 172, E n k * We j k) + ∑ k : Fin 100, T n k * Wm j k) + bt j

/-- Scaled by weight and validity, clamped at zero. -/
def act (n : Fin 50) (j : Fin 172) : EReal := max (lin X E T Wn We Wm bt n j * (wg n * vl n)) 0

/-- The maximum over the neighbours. -/
def pool (j : Fin 172) : EReal := (Finset.univ : Finset (Fin 50)).fold max ⊥ fun n => act X E T vl wg Wn We Wm bt n j

/-- The merge layer's hidden feature `k` (`W1p k`, `W1s k`: row `k` of the first merge weight, cut at 172). -/
def mid (k : Fin 172) : EReal :=
  max (((∑ j : Fin 172, pool X E T vl wg Wn We Wm bt j * W1p k j) + ∑ j : Fin 172, src j * W1s k j) + b1 k) 0

/-- The row's result at output feature `d`. -/
def out (d : Fin 172) : EReal := (∑ k : Fin 172, mid X E T vl wg src Wn We Wm bt W1p W1s b1 k * W2 d k) + b2 d

/-- The reference's spelling of the transform: one contraction over the concatenated 444 features. -/
theorem lin_of_concat (n : Fin 50) (j : Fin 172) (cat W : Fin 444 → EReal)
    (h0 : ∀ k : Fin 172, cat ⟨k.val, lt444_0 k⟩ = X n k) (h1 : ∀ k : Fin 172, cat ⟨172 + k.val, lt444_1 k⟩ = E n k)
    (h2 : ∀ k : Fin 100, cat ⟨344 + k.val, lt444_2 k⟩ = T n k)
    (g0 : ∀ k : Fin 172, W ⟨k.val, lt444_0 k⟩ = Wn j k) (g1 : ∀ k : Fin 172, W ⟨172 + k.val, lt444_1 k⟩ = We j k)
    (g2 : ∀ k : Fin 100, W ⟨344 + k.val, lt444_2 k⟩ = Wm j k) :
    (∑ f : Fin 444, cat f * W f) + bt j = lin X E T Wn We Wm bt n j := by
  rw [sum_fin444, lin]
  simp only [h0, h1, h2, g0, g1, g2]

/-- The reference's spelling of the scaling: by the weight, then by the validity. -/
theorem act_of_two_factors (n : Fin 50) (j : Fin 172) :
    max ((lin X E T Wn We Wm bt n j * wg n) * vl n) 0 = act X E T vl wg Wn We Wm bt n j := by
  rw [act, mul_assoc]

/-- The reference's spelling of the hidden feature: one contraction over the concatenated 344 features. -/
theorem mid_of_concat (k : Fin 172) (cat W : Fin 344 → EReal)
    (h0 : ∀ j : Fin 172, cat ⟨j.val, lt344_0 j⟩ = pool X E T vl wg Wn We Wm bt j)
    (h1 : ∀ j : Fin 172, cat ⟨172 + j.val, lt344_1 j⟩ = src j)
    (g0 : ∀ j : Fin 172, W ⟨j.val, lt344_0 j⟩ = W1p k j) (g1 : ∀ j : Fin 172, W ⟨172 + j.val, lt344_1 j⟩ = W1s k j) :
    max ((∑ f : Fin 344, cat f * W f) + b1 k) 0 = mid X E T vl wg src Wn We Wm bt W1p W1s b1 k := by
  rw [sum_fin344, mid]
  simp only [h0, h1, g0, g1]

end Row

end Cert.RowSpec

end
-- ==== Proof.LibLayout.lean ====
/-
  Layout operations on a column of batch rows, read at an index given by coordinates: a middle or trailing unit
  axis dropped or added by a shape cast, and a column `[a, 1]` broadcast along its rows to `[a, b]`. Each is the
  library's general reading (`shapeCast_apply`: source and target agree in row-major position; `broadcastTo_apply`:
  a unit axis reads coordinate 0) with both indices written out by coordinates, so that a lemma applies to a printed
  operation by unification. General in the extents; nothing here mentions a program.
-/
import Idealize.ShloMosaic.Lib.ValueLayout

namespace Cert.LibLayout

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KIndex.lean ====
/-
  The kernel body's stored tile read at row `p` and column `q`: it is the row specification (RowSpec) of row `p` of
  the tile's input blocks. Each operation of the fold's step is read at the index — a product on the matrix unit as a
  sum over the contracted positions, a bias row at its column, the scaling column at its row — and the running
  maximum over the list of neighbours becomes the maximum over all fifty.
-/
import proofs.«142474_j76166950028261_1_alg».proof.Proof.KBody
import proofs.«142474_j76166950028261_1_alg».proof.Proof.RowSpec
import proofs.«142474_j76166950028261_1_alg».proof.Proof.LibLayout
import Idealize.ShloMosaic.PureOps.Ideal.Laws
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx Idealize.SL.Sem Cert.LibLayout Cert

/-! ## The two contractions of the body -/

theorem lhs_mm172_0 (i : S128x172.Idx) (q : dot_S128x172_S172x172_S128x172_1_0_0_1_n_n.contr.Idx) :
    (dot_S128x172_S172x172_S128x172_1_0_0_1_n_n.lhsIdx i q 0).val = (i 0).val := by
  unfold DotDims.lhsIdx
  rw [dif_neg (show ¬(0 : Fin S128x172.rank) ∈ dot_S128x172_S172x172_S128x172_1_0_0_1_n_n.lhsBatch by decide), dif_pos (show (0 : Fin S128x172.rank) ∈ dot_S128x172_S172x172_S128x172_1_0_0_1_n_n.lhsNonContracting by decide)]
  rfl
theorem lhs_mm172_1 (i : S128x172.Idx) (q : dot_S128x172_S172x172_S128x172_1_0_0_1_n_n.contr.Idx) :
    (dot_S128x172_S172x172_S128x172_1_0_0_1_n_n.lhsIdx i q 1).val = (q ⟨0, by decide⟩).val :=
  dot_S128x172_S172x172_S128x172_1_0_0_1_n_n.lhsIdx_val_of_single rfl i q
theorem rhs_mm172_0 (i : S128x172.Idx) (q : dot_S128x172_S172x172_S128x172_1_0_0_1_n_n.contr.Idx) :
    (dot_S128x172_S172x172_S128x172_1_0_0_1_n_n.rhsIdx i q 0).val = (q ⟨0, by decide⟩).val :=
  dot_S128x172_S172x172_S128x172_1_0_0_1_n_n.rhsIdx_val_of_single rfl i q
theorem rhs_mm172_1 (i : S128x172.Idx) (q : dot_S128x172_S172x172_S128x172_1_0_0_1_n_n.contr.Idx) :
    (dot_S128x172_S172x172_S128x172_1_0_0_1_n_n.rhsIdx i q 1).val = (i 1).val := by
  unfold DotDims.rhsIdx
  rw [dif_neg (show ¬(1 : Fin S172x172.rank) ∈ dot_S128x172_S172x172_S128x172_1_0_0_1_n_n.rhsBatch by decide), dif_pos (show (1 : Fin S172x172.rank) ∈ dot_S128x172_S172x172_S128x172_1_0_0_1_n_n.rhsNonContracting by decide)]
  rfl

/-- A product on the matrix unit into a zero accumulator, at row `p` and column `q`: the sum over the 172 contracted
    positions of the left operand's row entry times the right operand's column entry. -/
theorem mm172_apply (l : FVec Ideal S128x172 .bf16) (r : FVec Ideal S172x172 .bf16) (p : Fin 128) (q : Fin 172) :
    matmul dot_S128x172_S172x172_S128x172_1_0_0_1_n_n none l r (constant S128x172 .f32 0x00000000#32) (ix2 p q)
      = ∑ k : Fin 172, l (ix2 p k) * r (ix2 k q) := by
  simp only [matmul]
  rw [Ideal.matmul_constant_zero_apply, ← Equiv.sum_comp (ValueIdx.contrEquiv1 dot_S128x172_S172x172_S128x172_1_0_0_1_n_n 172 rfl rfl).symm]
  refine Finset.sum_congr rfl fun k _ => ?_
  have hk := ValueIdx.contrEquiv1_symm_val dot_S128x172_S172x172_S128x172_1_0_0_1_n_n 172 rfl rfl k
  have el : dot_S128x172_S172x172_S128x172_1_0_0_1_n_n.lhsIdx (ix2 p q) ((ValueIdx.contrEquiv1 dot_S128x172_S172x172_S128x172_1_0_0_1_n_n 172 rfl rfl).symm k) = ix2 p k := funext fun a => Fin.ext (by
    match a with
    | ⟨0, _⟩ => exact lhs_mm172_0 _ _
    | ⟨1, _⟩ => exact (lhs_mm172_1 _ _).trans hk)
  have er : dot_S128x172_S172x172_S128x172_1_0_0_1_n_n.rhsIdx (ix2 p q) ((ValueIdx.contrEquiv1 dot_S128x172_S172x172_S128x172_1_0_0_1_n_n 172 rfl rfl).symm k) = ix2 k q := funext fun a => Fin.ext (by
    match a with
    | ⟨0, _⟩ => exact (rhs_mm172_0 _ _).trans hk
    | ⟨1, _⟩ => exact rhs_mm172_1 _ _)
  rw [el, er]

theorem lhs_mm100_0 (i : S128x172.Idx) (q : dot_S128x100_S100x172_S128x172_1_0_0_1_n_n.contr.Idx) :
    (dot_S128x100_S100x172_S128x172_1_0_0_1_n_n.lhsIdx i q 0).val = (i 0).val := by
  unfold DotDims.lhsIdx
  rw [dif_neg (show ¬(0 : Fin S128x100.rank) ∈ dot_S128x100_S100x172_S128x172_1_0_0_1_n_n.lhsBatch by decide), dif_pos (show (0 : Fin S128x100.rank) ∈ dot_S128x100_S100x172_S128x172_1_0_0_1_n_n.lhsNonContracting by decide)]
  rfl
theorem lhs_mm100_1 (i : S128x172.Idx) (q : dot_S128x100_S100x172_S128x172_1_0_0_1_n_n.contr.Idx) :
    (dot_S128x100_S100x172_S128x172_1_0_0_1_n_n.lhsIdx i q 1).val = (q ⟨0, by decide⟩).val :=
  dot_S128x100_S100x172_S128x172_1_0_0_1_n_n.lhsIdx_val_of_single rfl i q
theorem rhs_mm100_0 (i : S128x172.Idx) (q : dot_S128x100_S100x172_S128x172_1_0_0_1_n_n.contr.Idx) :
    (dot_S128x100_S100x172_S128x172_1_0_0_1_n_n.rhsIdx i q 0).val = (q ⟨0, by decide⟩).val :=
  dot_S128x100_S100x172_S128x172_1_0_0_1_n_n.rhsIdx_val_of_single rfl i q
theorem rhs_mm100_1 (i : S128x172.Idx) (q : dot_S128x100_S100x172_S128x172_1_0_0_1_n_n.contr.Idx) :
    (dot_S128x100_S100x172_S128x172_1_0_0_1_n_n.rhsIdx i q 1).val = (i 1).val := by
  unfold DotDims.rhsIdx
  rw [dif_neg (show ¬(1 : Fin S100x172.rank) ∈ dot_S128x100_S100x172_S128x172_1_0_0_1_n_n.rhsBatch by decide), dif_pos (show (1 : Fin S100x172.rank) ∈ dot_S128x100_S100x172_S128x172_1_0_0_1_n_n.rhsNonContracting by decide)]
  rfl

/-- A product on the matrix unit into a zero accumulator, at row `p` and column `q`: the sum over the 100 contracted
    positions of the left operand's row entry times the right operand's column entry. -/
theorem mm100_apply (l : FVec Ideal S128x100 .bf16) (r : FVec Ideal S100x172 .bf16) (p : Fin 128) (q : Fin 172) :
    matmul dot_S128x100_S100x172_S128x172_1_0_0_1_n_n none l r (constant S128x172 .f32 0x00000000#32) (ix2 p q)
      = ∑ k : Fin 100, l (ix2 p k) * r (ix2 k q) := by
  simp only [matmul]
  rw [Ideal.matmul_constant_zero_apply, ← Equiv.sum_comp (ValueIdx.contrEquiv1 dot_S128x100_S100x172_S128x172_1_0_0_1_n_n 100 rfl rfl).symm]
  refine Finset.sum_congr rfl fun k _ => ?_
  have hk := ValueIdx.contrEquiv1_symm_val dot_S128x100_S100x172_S128x172_1_0_0_1_n_n 100 rfl rfl k
  have el : dot_S128x100_S100x172_S128x172_1_0_0_1_n_n.lhsIdx (ix2 p q) ((ValueIdx.contrEquiv1 dot_S128x100_S100x172_S128x172_1_0_0_1_n_n 100 rfl rfl).symm k) = ix2 p k := funext fun a => Fin.ext (by
    match a with
    | ⟨0, _⟩ => exact lhs_mm100_0 _ _
    | ⟨1, _⟩ => exact (lhs_mm100_1 _ _).trans hk)
  have er : dot_S128x100_S100x172_S128x172_1_0_0_1_n_n.rhsIdx (ix2 p q) ((ValueIdx.contrEquiv1 dot_S128x100_S100x172_S128x172_1_0_0_1_n_n 100 rfl rfl).symm k) = ix2 k q := funext fun a => Fin.ext (by
    match a with
    | ⟨0, _⟩ => exact (rhs_mm100_0 _ _).trans hk
    | ⟨1, _⟩ => exact rhs_mm100_1 _ _)
  rw [el, er]

/-! ## The step's pieces at an index -/

/-- A weight block as the matrix unit takes it holds the block's own entries. -/
theorem asMxu172_apply (w : Vec Ideal S172x172 .f32) (k j : Fin 172) : asMxu172 (F := Ideal) w (ix2 k j) = w (ix2 k j) := by
  unfold asMxu172
  rw [truncf_apply, shapeCast_self]

theorem asMxu100_apply (w : Vec Ideal S100x172 .f32) (k : Fin 100) (j : Fin 172) : asMxu100 (F := Ideal) w (ix2 k j) = w (ix2 k j) := by
  unfold asMxu100
  rw [truncf_apply, shapeCast_self]

/-- A bias row laid over the tile reads its column's entry. -/
theorem biasRows_apply (b : Vec Ideal S172 .f32) (p : Fin 128) (q : Fin 172) : biasRows (F := Ideal) b (ix2 p q) = b (ix1 q) := by
  unfold biasRows
  rw [broadcastTo_1b_ab_apply, shapeCast_a_1a_apply]

/-- Row `n` of a feature block, loaded, holds the block's entries of neighbour `n`. -/
theorem ld_row172 (x : Vec Ideal S128x50x172 .f32) (n : Fin 50) (p : Fin 128) (k : Fin 172) :
    (View.ld x (row172 n) : Vec Ideal S128x1x172 .f32) (ix3 p (0 : Fin 1) k) = x (ix3 p n k) := by
  show x _ = x _
  refine congrArg x (funext fun a => Fin.ext ?_)
  match a with
  | ⟨0, _⟩ => show 0 + 1 * p.val = p.val; omega
  | ⟨1, _⟩ => show n.val + 1 * 0 = n.val; omega
  | ⟨2, _⟩ => show 0 + 1 * k.val = k.val; omega

theorem ld_row100 (x : Vec Ideal S128x50x100 .f32) (n : Fin 50) (p : Fin 128) (k : Fin 100) :
    (View.ld x (row100 n) : Vec Ideal S128x1x100 .f32) (ix3 p (0 : Fin 1) k) = x (ix3 p n k) := by
  show x _ = x _
  refine congrArg x (funext fun a => Fin.ext ?_)
  match a with
  | ⟨0, _⟩ => show 0 + 1 * p.val = p.val; omega
  | ⟨1, _⟩ => show n.val + 1 * 0 = n.val; omega
  | ⟨2, _⟩ => show 0 + 1 * k.val = k.val; omega

/-- Column `n` of the mask's words or of the weights, loaded. -/
theorem ld_col {e : EltTy} (x : Vec Ideal S128x50 e) (n : Fin 50) (p : Fin 128) :
    (View.ld x (col n) : Vec Ideal S128x1 e) (ix2 p (0 : Fin 1)) = x (ix2 p n) := by
  show x _ = x _
  refine congrArg x (funext fun a => Fin.ext ?_)
  match a with
  | ⟨0, _⟩ => show 0 + 1 * p.val = p.val; omega
  | ⟨1, _⟩ => show n.val + 1 * 0 = n.val; omega

/-- A whole block, loaded, is the block. -/
theorem ld_whole172x172 (x : Vec Ideal S172x172 .f32) : View.ld x r0_0 = x :=
  View.ld_unit_zero (S := S172x172) (by funext a; match a with | ⟨0, _⟩ => rfl | ⟨1, _⟩ => rfl) _ x
theorem ld_whole100x172 (x : Vec Ideal S100x172 .f32) : View.ld x r0_1 = x :=
  View.ld_unit_zero (S := S100x172) (by funext a; match a with | ⟨0, _⟩ => rfl | ⟨1, _⟩ => rfl) _ x
theorem ld_whole172 (x : Vec Ideal S172 .f32) : View.ld x r0_2 = x :=
  View.ld_unit_zero (S := S172) (by funext a; match a with | ⟨0, _⟩ => rfl) _ x
theorem ld_whole128x172 (x : Vec Ideal S128x172 .f32) : View.ld x r0_153 = x :=
  View.ld_unit_zero (S := S128x172) (by funext a; match a with | ⟨0, _⟩ => rfl | ⟨1, _⟩ => rfl) _ x

/-- `h_n` at row `p`, column `q`: three sums over the contracted positions and the bias. -/
theorem affine_apply (wn we : FVec Ideal S172x172 .bf16) (wt : FVec Ideal S100x172 .bf16) (bt : Vec Ideal S172 .f32)
    (xn en : Vec Ideal S128x1x172 .f32) (tn : Vec Ideal S128x1x100 .f32) (p : Fin 128) (q : Fin 172) :
    affine (F := Ideal) wn we wt bt xn en tn (ix2 p q)
      = (((∑ k : Fin 172, xn (ix3 p (0 : Fin 1) k) * wn (ix2 k q)) + ∑ k : Fin 172, en (ix3 p (0 : Fin 1) k) * we (ix2 k q))
          + ∑ k : Fin 100, tn (ix3 p (0 : Fin 1) k) * wt (ix2 k q)) + bt (ix1 q) := by
  unfold affine
  rw [addf_apply, addf_apply, addf_apply, mm172_apply, mm172_apply, mm100_apply, biasRows_apply]
  simp only [truncf_apply, shapeCast_a1b_ab_apply]

/-- The validity factor at batch row `p`, from the mask's word of that row. -/
theorem validOf_apply (mk : Vec Ideal S128x1 .i32) (p : Fin 128) :
    validOf (F := Ideal) mk (ix1 p) = RowSpec.validOfWord (mk (ix2 p (0 : Fin 1))) := by
  unfold validOf RowSpec.validOfWord
  show (((((IntOp.xori (IntOp.cmpi .ne (shapeCast S128 mk shapeCasts_S128x1_S128 (ix1 p)) 0#32) 1#1).setWidth 32).toInt : ℝ)) : EReal) = _
  rw [shapeCast_a1_a_apply]

/-- The scaling at row `p` (any column): the row's weight times its validity. -/
theorem gate_apply (mk : Vec Ideal S128x1 .i32) (wg : Vec Ideal S128x1 .f32) (p : Fin 128) (q : Fin 172) :
    gate (F := Ideal) mk wg (ix2 p q) = wg (ix2 p (0 : Fin 1)) * RowSpec.validOfWord (mk (ix2 p (0 : Fin 1))) := by
  unfold gate
  rw [broadcastTo_a1_ab_apply, shapeCast_a_a1_apply, mulf_apply, shapeCast_a1_a_apply, validOf_apply]

end Cert.KernelIdeal.Body

end
-- ==== Proof.KTile.lean ====
/-
  Row `p` of the stored tile is the row specification of row `p` of the tile's input blocks: the fold's step at an
  index is "maximum of the running value and RowSpec.act of that neighbour", so the fold along the list of the fifty
  neighbours, started at −∞, is RowSpec.pool; the merge layer at an index is RowSpec.mid and RowSpec.out. The weight
  blocks arrive transposed (contracted position first), which is how RowSpec's weights are read off them.
-/
import proofs.«142474_j76166950028261_1_alg».proof.Proof.KIndex

noncomputable section

namespace Cert.KernelIdeal.Body

open Cert.KernelIdeal Cert.KernelIdeal.Gen Idealize.ShloMosaic Idealize.ShloMosaic.ValueIdx Idealize.SL.Sem Cert.LibLayout Cert Cert.RowSpec

variable (x0 x1 : Vec Ideal S128x50x172 .f32) (x2 : Vec Ideal S128x50x100 .f32) (x3 : Vec Ideal S128x50 .i32) (x4 : Vec Ideal S128x50 .f32)
  (x5 : Vec Ideal S128x172 .f32) (x6 x7 : Vec Ideal S172x172 .f32) (x8 : Vec Ideal S100x172 .f32) (x9 : Vec Ideal S172 .f32)
  (x10 x11 : Vec Ideal S172x172 .f32) (x12 : Vec Ideal S172 .f32) (x13 : Vec Ideal S172x172 .f32) (x14 : Vec Ideal S172 .f32)

/-- One step of the fold at row `p`, column `q`. -/
theorem step_apply (acc : FVec Ideal S128x172 .f32) (n : Fin 50) (p : Fin 128) (q : Fin 172) :
    step (F := Ideal) (asMxu172 x6) (asMxu172 x7) (asMxu100 x8) x9 x0 x1 x2 x3 x4 acc n (ix2 p q)
      = max (acc (ix2 p q)) (RowSpec.act (fun n k => x0 (ix3 p n k)) (fun n k => x1 (ix3 p n k)) (fun n k => x2 (ix3 p n k))
        (fun n => validOfWord (x3 (ix2 p n))) (fun n => x4 (ix2 p n))
        (fun j k => x6 (ix2 k j)) (fun j k => x7 (ix2 k j)) (fun j k => x8 (ix2 k j)) (fun j => x9 (ix1 j)) n q) := by
  unfold step RowSpec.act RowSpec.lin
  rw [maximumf_apply, maximumf_apply, mulf_apply, affine_apply, gate_apply, broadcast_apply]
  have e0 : ∀ k : Fin 172, (View.ld x0 (row172 n) : Vec Ideal S128x1x172 .f32) (ix3 p (0 : Fin 1) k) = x0 (ix3 p n k) := ld_row172 x0 n p
  have e1 : ∀ k : Fin 172, (View.ld x1 (row172 n) : Vec Ideal S128x1x172 .f32) (ix3 p (0 : Fin 1) k) = x1 (ix3 p n k) := ld_row172 x1 n p
  have e2 : ∀ k : Fin 100, (View.ld x2 (row100 n) : Vec Ideal S128x1x100 .f32) (ix3 p (0 : Fin 1) k) = x2 (ix3 p n k) := ld_row100 x2 n p
  have e3 : (View.ld x3 (col n) : Vec Ideal S128x1 .i32) (ix2 p (0 : Fin 1)) = x3 (ix2 p n) := ld_col x3 n p
  have e4 : (View.ld x4 (col n) : Vec Ideal S128x1 .f32) (ix2 p (0 : Fin 1)) = x4 (ix2 p n) := ld_col x4 n p
  simp only [e0, e1, e2, e3, e4, asMxu172_apply, asMxu100_apply]
  show max _ (max _ (Ideal.ofBits .f32 0x00000000#32)) = _
  rw [Ideal.ofBits_zero_f32]

/-- The running maximum after the fifty neighbours, at row `p`, column `q`. -/
theorem pooled_apply (p : Fin 128) (q : Fin 172) :
    pooled (F := Ideal) x0 x1 x2 x3 x4 x6 x7 x8 x9 (ix2 p q)
      = RowSpec.pool (fun n k => x0 (ix3 p n k)) (fun n k => x1 (ix3 p n k)) (fun n k => x2 (ix3 p n k))
        (fun n => validOfWord (x3 (ix2 p n))) (fun n => x4 (ix2 p n))
        (fun j k => x6 (ix2 k j)) (fun j k => x7 (ix2 k j)) (fun j k => x8 (ix2 k j)) (fun j => x9 (ix1 j)) q := by
  unfold pooled
  rw [ld_whole172x172, ld_whole172x172, ld_whole100x172, ld_whole172]
  rw [RowSpec.foldl_apply (fun n => RowSpec.act (fun n k => x0 (ix3 p n k)) (fun n k => x1 (ix3 p n k)) (fun n k => x2 (ix3 p n k))
        (fun n => validOfWord (x3 (ix2 p n))) (fun n => x4 (ix2 p n))
        (fun j k => x6 (ix2 k j)) (fun j k => x7 (ix2 k j)) (fun j k => x8 (ix2 k j)) (fun j => x9 (ix1 j)) n q) _ (ix2 p q)
      (fun acc n => step_apply x0 x1 x2 x3 x4 x6 x7 x8 x9 acc n p q) nbrs _]
  rw [broadcast_apply]
  show nbrs.foldl _ (Ideal.ofBits .f32 0xFF800000#32) = _
  rw [RowSpec.ofBits_neg_inf, RowSpec.foldl_max_eq_fold _ nbrs (by decide)]
  rfl

/-- The merge layer at row `p`, column `q`. -/
theorem merge_apply (P : FVec Ideal S128x172 .f32) (src : Vec Ideal S128x172 .f32) (w1p w1s : Vec Ideal S172x172 .f32)
    (b1 : Vec Ideal S172 .f32) (w2 : Vec Ideal S172x172 .f32) (b2 : Vec Ideal S172 .f32) (p : Fin 128) (q : Fin 172) :
    merge (F := Ideal) P src w1p w1s b1 w2 b2 (ix2 p q)
      = (∑ k : Fin 172, max (((∑ j : Fin 172, P (ix2 p j) * w1p (ix2 j k)) + ∑ j : Fin 172, src (ix2 p j) * w1s (ix2 j k)) + b1 (ix1 k)) 0
          * w2 (ix2 k q)) + b2 (ix1 q) := by
  unfold merge
  rw [addf_apply, mm172_apply, biasRows_apply]
  refine congrArg (· + b2 (ix1 q)) (Finset.sum_congr rfl fun k _ => ?_)
  rw [truncf_apply, maximumf_apply, addf_apply, addf_apply, mm172_apply, mm172_apply, biasRows_apply, broadcast_apply,
    asMxu172_apply]
  simp only [truncf_apply, asMxu172_apply]
  show max _ (Ideal.ofBits .f32 0x00000000#32) * _ = _
  rw [Ideal.ofBits_zero_f32]

/-- The stored tile at row `p`, column `q`: the row specification of row `p` of the blocks. -/
theorem stored_apply (p : Fin 128) (q : Fin 172) :
    stored (F := Ideal) x0 x1 x2 x3 x4 x5 x6 x7 x8 x9 x10 x11 x12 x13 x14 (ix2 p q)
      = RowSpec.out (fun n k => x0 (ix3 p n k)) (fun n k => x1 (ix3 p n k)) (fun n k => x2 (ix3 p n k))
        (fun n => validOfWord (x3 (ix2 p n))) (fun n => x4 (ix2 p n)) (fun k => x5 (ix2 p k))
        (fun j k => x6 (ix2 k j)) (fun j k => x7 (ix2 k j)) (fun j k => x8 (ix2 k j)) (fun j => x9 (ix1 j))
        (fun k j => x10 (ix2 j k)) (fun k j => x11 (ix2 j k)) (fun k => x12 (ix1 k)) (fun d k => x13 (ix2 k d)) (fun d => x14 (ix1 d)) q := by
  unfold stored RowSpec.out RowSpec.mid
  rw [merge_apply, ld_whole128x172, ld_whole172x172, ld_whole172x172, ld_whole172x172, ld_whole172, ld_whole172]
  simp only [pooled_apply]

/-- What the body leaves in the output block, at row `p`, column `q`. -/
theorem out_apply (p : Fin 128) (q : Fin 172) :
    out0_15 (F := Ideal) x0 x1 x2 x3 x4 x5 x6 x7 x8 x9 x10 x11 x12 x13 x14 (ix2 p q)
      = RowSpec.out (fun n k => x0 (ix3 p n k)) (fun n k => x1 (ix3 p n k)) (fun n k => x2 (ix3 p n k))
        (fun n => validOfWord (x3 (ix2 p n))) (fun n => x4 (ix2 p n)) (fun k => x5 (ix2 p k))
        (fun j k => x6 (ix2 k j)) (fun j k => x7 (ix2 k j)) (fun j k => x8 (ix2 k j)) (fun j => x9 (ix1 j))
        (fun k j => x10 (ix2 j k)) (fun k j => x11 (ix2 j k)) (fun k => x12 (ix1 k)) (fun d k => x13 (ix2 k d)) (fun d => x14 (ix1 d)) q := by
  rw [out_eq_stored, View.canon_unit_zero (S := S128x172) (by funext a; match a with | ⟨0, _⟩ => rfl | ⟨1, _⟩ => rfl)]
  exact stored_apply x0 x1 x2 x3 x4 x5 x6 x7 x8 x9 x10 x11 x12 x13 x14 p q

end Cert.KernelIdeal.Body

end
-- ==== Proof.Whole.lean ====
/-
  The result array both programs compute, as ONE function of the twelve argument arrays: entry `(b, d)` is the row
  specification (RowSpec) of batch row `b` at output feature `d`. Row `b` takes its fifty neighbours' node, edge and
  time features from rows `(b, n, ·)` of the three feature arrays, its validity factors from the negated mask bits
  `(b, n)`, its weights from `(b, n)`, its own features from `(b, ·)`; the transform's weight is read in its three
  column runs (from 0, 172 and 344), the first merge weight in its two (from 0 and 172).
-/
import proofs.«142474_j76166950028261_1_alg».proof.Proof.RowSpec

noncomputable section

namespace Cert.Whole

open Idealize.ShloMosaic Idealize.ShloMosaic.ValueIdx Cert.RowSpec

/-- Entry `(b, d)` of the result. -/
def resultAt (A0 : (⟨2, ![8192, 172]⟩ : Shape).Idx → EReal) (A1 : (⟨3, ![8192, 50, 172]⟩ : Shape).Idx → EReal)
    (A2 : (⟨3, ![8192, 50, 100]⟩ : Shape).Idx → EReal) (A3 : (⟨3, ![8192, 50, 172]⟩ : Shape).Idx → EReal)
    (A4 : (⟨2, ![8192, 50]⟩ : Shape).Idx → BitVec 1) (A5 : (⟨2, ![8192, 50]⟩ : Shape).Idx → EReal)
    (A6 : (⟨2, ![172, 444]⟩ : Shape).Idx → EReal) (A7 : (⟨1, ![172]⟩ : Shape).Idx → EReal)
    (A8 : (⟨2, ![172, 344]⟩ : Shape).Idx → EReal) (A9 : (⟨1, ![172]⟩ : Shape).Idx → EReal)
    (A10 : (⟨2, ![172, 172]⟩ : Shape).Idx → EReal) (A11 : (⟨1, ![172]⟩ : Shape).Idx → EReal)
    (b : Fin 8192) (d : Fin 172) : EReal :=
  RowSpec.out (fun n k => A1 (ix3 b n k)) (fun n k => A3 (ix3 b n k)) (fun n k => A2 (ix3 b n k))
    (fun n => validOfBit (A4 (ix2 b n))) (fun n => A5 (ix2 b n)) (fun k => A0 (ix2 b k))
    (fun j k => A6 (ix2 j ⟨k.val, lt444_0 k⟩)) (fun j k => A6 (ix2 j ⟨172 + k.val, lt444_1 k⟩))
    (fun j k => A6 (ix2 j ⟨344 + k.val, lt444_2 k⟩)) (fun j => A7 (ix1 j))
    (fun k j => A8 (ix2 k ⟨j.val, lt344_0 j⟩)) (fun k j => A8 (ix2 k ⟨172 + j.val, lt344_1 j⟩)) (fun k => A9 (ix1 k))
    (fun d k => A10 (ix2 d k)) (fun d => A11 (ix1 d)) d

/-- The result array. -/
def result (A0 : (⟨2, ![8192, 172]⟩ : Shape).Idx → EReal) (A1 : (⟨3, ![8192, 50, 172]⟩ : Shape).Idx → EReal)
    (A2 : (⟨3, ![8192, 50, 100]⟩ : Shape).Idx → EReal) (A3 : (⟨3, ![8192, 50, 172]⟩ : Shape).Idx → EReal)
    (A4 : (⟨2, ![8192, 50]⟩ : Shape).Idx → BitVec 1) (A5 : (⟨2, ![8192, 50]⟩ : Shape).Idx → EReal)
    (A6 : (⟨2, ![172, 444]⟩ : Shape).Idx → EReal) (A7 : (⟨1, ![172]⟩ : Shape).Idx → EReal)
    (A8 : (⟨2, ![172, 344]⟩ : Shape).Idx → EReal) (A9 : (⟨1, ![172]⟩ : Shape).Idx → EReal)
    (A10 : (⟨2, ![172, 172]⟩ : Shape).Idx → EReal) (A11 : (⟨1, ![172]⟩ : Shape).Idx → EReal) :
    (⟨2, ![8192, 172]⟩ : Shape).Idx → EReal :=
  fun i => resultAt A0 A1 A2 A3 A4 A5 A6 A7 A8 A9 A10 A11 (i 0) (i 1)

end Cert.Whole

end
-- ==== Proof.KValue.lean ====
/-
  From the tiles to the array: grid point `t` writes back rows 128·t … 128·t + 127 of the result, and what it writes is
  the row specification of those rows of the ARGUMENT arrays.

  A moving window's block at point `t` is rows 128·t … of its array (the index maps send `t` to block `(t, 0, …)`);
  the nine weight and bias windows stage their whole arrays. Six of the staged arrays are written by the host before
  the launch: the transposes of the transform's weight cut at columns 0, 172 and 344, of the first merge weight cut at 0
  and 172, and of the second merge weight, and the mask widened from a bit to a word; read at an index they are
  entries of the argument arrays, and the widened mask's validity factor is the mask bit's. The sixty-four blocks
  tile the 8192 rows, so the array after the run is the specification everywhere.
-/
import proofs.«142474_j76166950028261_1_alg».proof.Proof.KTile
import proofs.«142474_j76166950028261_1_alg».proof.Proof.Whole
import proofs.«142474_j76166950028261_1_alg».proof.Proof.Gen.KernelIdeal.Value
import Idealize.ShloMosaic.Lib.ValueLayout
import Idealize.ShloMosaic.Lib.StableHlo.Run

noncomputable section

namespace Cert.KernelIdeal.KValue

open Cert.KernelIdeal Cert.KernelIdeal.Gen Cert.KernelIdeal.Value Idealize.ShloMosaic Idealize.ShloMosaic.TcCoe Idealize.ShloMosaic.ValueIdx
open Idealize.SL.Sem Idealize.ShloMosaic.StableHlo
open Idealize.ShloMosaic.Pipeline (Dat)
open Cert Cert.RowSpec

variable (m : (ℓ : Loc nD τ sig) → Buf (Elt Ideal) ℓ) (ρ : Dev nD → PrngReg)

/-- The result array, of the argument arrays as launched. -/
def G (c : Dev nD) : S8192x172.Idx → EReal :=
  Whole.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## The index maps, decided over the sixty-four grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)

theorem lt64 (t : Fin cfg0.N) : t.val < 64 := by
  have h := t.isLt
  have e : cfg0.N = 64 := N_0
  omega

theorem row_lt (t : Fin cfg0.N) (p : Fin 128) : 128 * t.val + p.val < 8192 := by
  have := lt64 t; have := p.isLt; omega

/-! ## What the host wrote before the launch, read at an index -/

theorem V_v1 (c : Dev nD) : (V m c main_v1 : S172x172.Idx → EReal)
    = transpose S172x172 [1, 0] (extractStridedSlice S172x172 ![0, 0] (m ((c : Thread nD τ).loc main_arg6)) slices_S172x444_S172x172_0_0) transposes_S172x172_S172x172_1_0 := by
  dsimp only [Gen.V, Gen.hostOps0]; after_results
theorem V_v3 (c : Dev nD) : (V m c main_v3 : S172x172.Idx → EReal)
    = transpose S172x172 [1, 0] (extractStridedSlice S172x172 ![0, 172] (m ((c : Thread nD τ).loc main_arg6)) slices_S172x444_S172x172_0_172) transposes_S172x172_S172x172_1_0 := by
  dsimp only [Gen.V, Gen.hostOps0]; after_results
theorem V_v5 (c : Dev nD) : (V m c main_v5 : S100x172.Idx → EReal)
    = transpose S100x172 [1, 0] (extractStridedSlice S172x100 ![0, 344] (m ((c : Thread nD τ).loc main_arg6)) slices_S172x444_S172x100_0_344) transposes_S172x100_S100x172_1_0 := by
  dsimp only [Gen.V, Gen.hostOps0]; after_results
theorem V_v7 (c : Dev nD) : (V m c main_v7 : S172x172.Idx → EReal)
    = transpose S172x172 [1, 0] (extractStridedSlice S172x172 ![0, 0] (m ((c : Thread nD τ).loc main_arg8)) slices_S172x344_S172x172_0_0) transposes_S172x172_S172x172_1_0 := by
  dsimp only [Gen.V, Gen.hostOps0]; after_results
theorem V_v9 (c : Dev nD) : (V m c main_v9 : S172x172.Idx → EReal)
    = transpose S172x172 [1, 0] (extractStridedSlice S172x172 ![0, 172] (m ((c : Thread nD τ).loc main_arg8)) slices_S172x344_S172x172_0_172) transposes_S172x172_S172x172_1_0 := by
  dsimp only [Gen.V, Gen.hostOps0]; after_results
theorem V_v10 (c : Dev nD) : (V m c main_v10 : S172x172.Idx → EReal)
    = transpose S172x172 [1, 0] (m ((c : Thread nD τ).loc main_arg10)) transposes_S172x172_S172x172_1_0 := by
  dsimp only [Gen.V, Gen.hostOps0]; after_results
theorem V_v11 (c : Dev nD) : (V m c main_v11 : S8192x50.Idx → BitVec 32)
    = extui 32 (m ((c : Thread nD τ).loc main_arg4)) natLt_1_32 := by
  dsimp only [Gen.V, Gen.hostOps0]; after_results

/-- The transposed first column run of the transform's weight: entry `(k, j)` is the weight's `(j, k)`. -/
theorem wn_at (c : Dev nD) (k j : Fin 172) :
    (V m c main_v1 : S172x172.Idx → EReal) (ix2 k j) = (m ((c : Thread nD τ).loc main_arg6)) (ix2 j ⟨k.val, lt444_0 k⟩) := by
  rw [V_v1, transpose_ix2_apply]
  exact slice2_axis1_apply 0 _ slices_S172x444_S172x172_0_0 j k _ (Nat.zero_add _).symm
theorem we_at (c : Dev nD) (k j : Fin 172) :
    (V m c main_v3 : S172x172.Idx → EReal) (ix2 k j) = (m ((c : Thread nD τ).loc main_arg6)) (ix2 j ⟨172 + k.val, lt444_1 k⟩) := by
  rw [V_v3, transpose_ix2_apply]
  exact slice2_axis1_apply 172 _ slices_S172x444_S172x172_0_172 j k _ rfl
theorem wm_at (c : Dev nD) (k : Fin 100) (j : Fin 172) :
    (V m c main_v5 : S100x172.Idx → EReal) (ix2 k j) = (m ((c : Thread nD τ).loc main_arg6)) (ix2 j ⟨344 + k.val, lt444_2 k⟩) := by
  rw [V_v5, transpose_ix2_apply]
  exact slice2_axis1_apply 344 _ slices_S172x444_S172x100_0_344 j k _ rfl
theorem w1p_at (c : Dev nD) (j k : Fin 172) :
    (V m c main_v7 : S172x172.Idx → EReal) (ix2 j k) = (m ((c : Thread nD τ).loc main_arg8)) (ix2 k ⟨j.val, lt344_0 j⟩) := by
  rw [V_v7, transpose_ix2_apply]
  exact slice2_axis1_apply 0 _ slices_S172x344_S172x172_0_0 k j _ (Nat.zero_add _).symm
theorem w1s_at (c : Dev nD) (j k : Fin 172) :
    (V m c main_v9 : S172x172.Idx → EReal) (ix2 j k) = (m ((c : Thread nD τ).loc main_arg8)) (ix2 k ⟨172 + j.val, lt344_1 j⟩) := by
  rw [V_v9, transpose_ix2_apply]
  exact slice2_axis1_apply 172 _ slices_S172x344_S172x172_0_172 k j _ rfl
theorem w2_at (c : Dev nD) (k d : Fin 172) :
    (V m c main_v10 : S172x172.Idx → EReal) (ix2 k d) = (m ((c : Thread nD τ).loc main_arg10)) (ix2 d k) := by
  rw [V_v10, transpose_ix2_apply]
/-- The widened mask's validity factor is the mask bit's. -/
theorem valid_at (c : Dev nD) (b : Fin 8192) (n : Fin 50) :
    validOfWord ((V m c main_v11 : S8192x50.Idx → BitVec 32) (ix2 b n)) = validOfBit ((m ((c : Thread nD τ).loc main_arg4)) (ix2 b n)) := by
  rw [V_v11]
  exact validOfWord_setWidth _

/-! ## The blocks at a grid point, read off the arrays -/

section Blocks
variable (c : Dev nD) (t : Fin cfg0.N) (p : Fin 128)

theorem blk0 (n : Fin 50) (k : Fin 172) :
    iblk m c 0 t (ix3 p n k) = (m ((c : Thread nD τ).loc main_arg1)) (ix3 (⟨128 * t.val + p.val, row_lt t p⟩ : Fin 8192) n k) := by
  show V m c main_arg1 (((cfg0.win 0).blk t).view.emb (ix3 p n k)) = _
  rw [V_main_arg1]
  obtain ⟨e0, e1, e2⟩ := idx0 t
  refine congrArg (m ((c : Thread nD τ).loc main_arg1)) (funext fun a => Fin.ext ?_)
  match a with
  | ⟨0, _⟩ => show win0_0.index t (0 : Fin 3) * 128 + 1 * p.val = 128 * t.val + p.val; omega
  | ⟨1, _⟩ => show win0_0.index t (1 : Fin 3) * 50 + 1 * n.val = n.val; omega
  | ⟨2, _⟩ => show win0_0.index t (2 : Fin 3) * 172 + 1 * k.val = k.val; omega

theorem blk1 (n : Fin 50) (k : Fin 172) :
    iblk m c 1 t (ix3 p n k) = (m ((c : Thread nD τ).loc main_arg3)) (ix3 (⟨128 * t.val + p.val, row_lt t p⟩ : Fin 8192) n k) := by
  show V m c main_arg3 (((cfg0.win 1).blk t).view.emb (ix3 p n k)) = _
  rw [V_main_arg3]
  obtain ⟨e0, e1, e2⟩ := idx1 t
  refine congrArg (m ((c : Thread nD τ).loc main_arg3)) (funext fun a => Fin.ext ?_)
  match a with
  | ⟨0, _⟩ => show win0_1.index t (0 : Fin 3) * 128 + 1 * p.val = 128 * t.val + p.val; omega
  | ⟨1, _⟩ => show win0_1.index t (1 : Fin 3) * 50 + 1 * n.val = n.val; omega
  | ⟨2, _⟩ => show win0_1.index t (2 : Fin 3) * 172 + 1 * k.val = k.val; omega

theorem blk2 (n : Fin 50) (k : Fin 100) :
    iblk m c 2 t (ix3 p n k) = (m ((c : Thread nD τ).loc main_arg2)) (ix3 (⟨128 * t.val + p.val, row_lt t p⟩ : Fin 8192) n k) := by
  show V m c main_arg2 (((cfg0.win 2).blk t).view.emb (ix3 p n k)) = _
  rw [V_main_arg2]
  obtain ⟨e0, e1, e2⟩ := idx2 t
  refine congrArg (m ((c : Thread nD τ).loc main_arg2)) (funext fun a => Fin.ext ?_)
  match a with
  | ⟨0, _⟩ => show win0_2.index t (0 : Fin 3) * 128 + 1 * p.val = 128 * t.val + p.val; omega
  | ⟨1, _⟩ => show win0_2.index t (1 : Fin 3) * 50 + 1 * n.val = n.val; omega
  | ⟨2, _⟩ => show win0_2.index t (2 : Fin 3) * 100 + 1 * k.val = k.val; omega

theorem blk3_staged (n : Fin 50) :
    iblk m c 3 t (ix2 p n) = (V m c main_v11 : S8192x50.Idx → BitVec 32) (ix2 (⟨128 * t.val + p.val, row_lt t p⟩ : Fin 8192) n) := by
  show V m c main_v11 (((cfg0.win 3).blk t).view.emb (ix2 p n)) = _
  obtain ⟨e0, e1⟩ := idx3 t
  refine congrArg (V m c main_v11 : S8192x50.Idx → BitVec 32) (funext fun a => Fin.ext ?_)
  match a with
  | ⟨0, _⟩ => show win0_3.index t (0 : Fin 2) * 128 + 1 * p.val = 128 * t.val + p.val; omega
  | ⟨1, _⟩ => show win0_3.index t (1 : Fin 2) * 50 + 1 * n.val = n.val; omega

theorem blk4 (n : Fin 50) :
    iblk m c 4 t (ix2 p n) = (m ((c : Thread nD τ).loc main_arg5)) (ix2 (⟨128 * t.val + p.val, row_lt t p⟩ : Fin 8192) n) := by
  show V m c main_arg5 (((cfg0.win 4).blk t).view.emb (ix2 p n)) = _
  rw [V_main_arg5]
  obtain ⟨e0, e1⟩ := idx4 t
  refine congrArg (m ((c : Thread nD τ).loc main_arg5)) (funext fun a => Fin.ext ?_)
  match a with
  | ⟨0, _⟩ => show win0_4.index t (0 : Fin 2) * 128 + 1 * p.val = 128 * t.val + p.val; omega
  | ⟨1, _⟩ => show win0_4.index t (1 : Fin 2) * 50 + 1 * n.val = n.val; omega

theorem blk5 (k : Fin 172) :
    iblk m c 5 t (ix2 p k) = (m ((c : Thread nD τ).loc main_arg0)) (ix2 (⟨128 * t.val + p.val, row_lt t p⟩ : Fin 8192) k) := by
  show V m c main_arg0 (((cfg0.win 5).blk t).view.emb (ix2 p k)) = _
  rw [V_main_arg0]
  obtain ⟨e0, e1⟩ := idx5 t
  refine congrArg (m ((c : Thread nD τ).loc main_arg0)) (funext fun a => Fin.ext ?_)
  match a with
  | ⟨0, _⟩ => show win0_5.index t (0 : Fin 2) * 128 + 1 * p.val = 128 * t.val + p.val; omega
  | ⟨1, _⟩ => show win0_5.index t (1 : Fin 2) * 172 + 1 * k.val = k.val; omega

theorem blk6_staged (k j : Fin 172) : iblk m c 6 t (ix2 k j) = (V m c main_v1 : S172x172.Idx → EReal) (ix2 k j) := by
  show V m c main_v1 (((cfg0.win 6).blk t).view.emb (ix2 k j)) = _
  obtain ⟨e0, e1⟩ := idx6 t
  refine congrArg (V m c main_v1 : S172x172.Idx → EReal) (funext fun a => Fin.ext ?_)
  match a with
  | ⟨0, _⟩ => show win0_6.index t (0 : Fin 2) * 172 + 1 * k.val = k.val; omega
  | ⟨1, _⟩ => show win0_6.index t (1 : Fin 2) * 172 + 1 * j.val = j.val; omega

theorem blk7_staged (k j : Fin 172) : iblk m c 7 t (ix2 k j) = (V m c main_v3 : S172x172.Idx → EReal) (ix2 k j) := by
  show V m c main_v3 (((cfg0.win 7).blk t).view.emb (ix2 k j)) = _
  obtain ⟨e0, e1⟩ := idx7 t
  refine congrArg (V m c main_v3 : S172x172.Idx → EReal) (funext fun a => Fin.ext ?_)
  match a with
  | ⟨0, _⟩ => show win0_7.index t (0 : Fin 2) * 172 + 1 * k.val = k.val; omega
  | ⟨1, _⟩ => show win0_7.index t (1 : Fin 2) * 172 + 1 * j.val = j.val; omega

theorem blk8_staged (k : Fin 100) (j : Fin 172) : iblk m c 8 t (ix2 k j) = (V m c main_v5 : S100x172.Idx → EReal) (ix2 k j) := by
  show V m c main_v5 (((cfg0.win 8).blk t).view.emb (ix2 k j)) = _
  obtain ⟨e0, e1⟩ := idx8 t
  refine congrArg (V m c main_v5 : S100x172.Idx → EReal) (funext fun a => Fin.ext ?_)
  match a with
  | ⟨0, _⟩ => show win0_8.index t (0 : Fin 2) * 100 + 1 * k.val = k.val; omega
  | ⟨1, _⟩ => show win0_8.index t (1 : Fin 2) * 172 + 1 * j.val = j.val; omega

theorem blk9 (j : Fin 172) : iblk m c 9 t (ix1 j) = (m ((c : Thread nD τ).loc main_arg7)) (ix1 j) := by
  show V m c main_arg7 (((cfg0.win 9).blk t).view.emb (ix1 j)) = _
  rw [V_main_arg7]
  have e0 := idx9 t
  refine congrArg (m ((c : Thread nD τ).loc main_arg7)) (funext fun a => Fin.ext ?_)
  match a with
  | ⟨0, _⟩ => show win0_9.index t (0 : Fin 1) * 172 + 1 * j.val = j.val; omega

theorem blk10_staged (j k : Fin 172) : iblk m c 10 t (ix2 j k) = (V m c main_v7 : S172x172.Idx → EReal) (ix2 j k) := by
  show V m c main_v7 (((cfg0.win 10).blk t).view.emb (ix2 j k)) = _
  obtain ⟨e0, e1⟩ := idx10 t
  refine congrArg (V m c main_v7 : S172x172.Idx → EReal) (funext fun a => Fin.ext ?_)
  match a with
  | ⟨0, _⟩ => show win0_10.index t (0 : Fin 2) * 172 + 1 * j.val = j.val; omega
  | ⟨1, _⟩ => show win0_10.index t (1 : Fin 2) * 172 + 1 * k.val = k.val; omega

theorem blk11_staged (j k : Fin 172) : iblk m c 11 t (ix2 j k) = (V m c main_v9 : S172x172.Idx → EReal) (ix2 j k) := by
  show V m c main_v9 (((cfg0.win 11).blk t).view.emb (ix2 j k)) = _
  obtain ⟨e0, e1⟩ := idx11 t
  refine congrArg (V m c main_v9 : S172x172.Idx → EReal) (funext fun a => Fin.ext ?_)
  match a with
  | ⟨0, _⟩ => show win0_11.index t (0 : Fin 2) * 172 + 1 * j.val = j.val; omega
  | ⟨1, _⟩ => show win0_11.index t (1 : Fin 2) * 172 + 1 * k.val = k.val; omega

theorem blk12 (k : Fin 172) : iblk m c 12 t (ix1 k) = (m ((c : Thread nD τ).loc main_arg9)) (ix1 k) := by
  show V m c main_arg9 (((cfg0.win 12).blk t).view.emb (ix1 k)) = _
  rw [V_main_arg9]
  have e0 := idx12 t
  refine congrArg (m ((c : Thread nD τ).loc main_arg9)) (funext fun a => Fin.ext ?_)
  match a with
  | ⟨0, _⟩ => show win0_12.index t (0 : Fin 1) * 172 + 1 * k.val = k.val; omega

theorem blk13_staged (k d : Fin 172) : iblk m c 13 t (ix2 k d) = (V m c main_v10 : S172x172.Idx → EReal) (ix2 k d) := by
  show V m c main_v10 (((cfg0.win 13).blk t).view.emb (ix2 k d)) = _
  obtain ⟨e0, e1⟩ := idx13 t
  refine congrArg (V m c main_v10 : S172x172.Idx → EReal) (funext fun a => Fin.ext ?_)
  match a with
  | ⟨0, _⟩ => show win0_13.index t (0 : Fin 2) * 172 + 1 * k.val = k.val; omega
  | ⟨1, _⟩ => show win0_13.index t (1 : Fin 2) * 172 + 1 * d.val = d.val; omega

theorem blk14 (d : Fin 172) : iblk m c 14 t (ix1 d) = (m ((c : Thread nD τ).loc main_arg11)) (ix1 d) := by
  show V m c main_arg11 (((cfg0.win 14).blk t).view.emb (ix1 d)) = _
  rw [V_main_arg11]
  have e0 := idx14 t
  refine congrArg (m ((c : Thread nD τ).loc main_arg11)) (funext fun a => Fin.ext ?_)
  match a with
  | ⟨0, _⟩ => show win0_14.index t (0 : Fin 1) * 172 + 1 * d.val = d.val; omega

/-- The mask's word of row `p`, neighbour `n` of the tile carries the validity of the mask's bit. -/
theorem blk3 (n : Fin 50) :
    validOfWord (iblk m c 3 t (ix2 p n)) = validOfBit ((m ((c : Thread nD τ).loc main_arg4)) (ix2 (⟨128 * t.val + p.val, row_lt t p⟩ : Fin 8192) n)) := by
  rw [blk3_staged]
  exact valid_at m c _ n

theorem blk6 (k j : Fin 172) : iblk m c 6 t (ix2 k j) = (m ((c : Thread nD τ).loc main_arg6)) (ix2 j ⟨k.val, lt444_0 k⟩) :=
  (blk6_staged m c t k j).trans (wn_at m c k j)
theorem blk7 (k j : Fin 172) : iblk m c 7 t (ix2 k j) = (m ((c : Thread nD τ).loc main_arg6)) (ix2 j ⟨172 + k.val, lt444_1 k⟩) :=
  (blk7_staged m c t k j).trans (we_at m c k j)
theorem blk8 (k : Fin 100) (j : Fin 172) : iblk m c 8 t (ix2 k j) = (m ((c : Thread nD τ).loc main_arg6)) (ix2 j ⟨344 + k.val, lt444_2 k⟩) :=
  (blk8_staged m c t k j).trans (wm_at m c k j)
theorem blk10 (j k : Fin 172) : iblk m c 10 t (ix2 j k) = (m ((c : Thread nD τ).loc main_arg8)) (ix2 k ⟨j.val, lt344_0 j⟩) :=
  (blk10_staged m c t j k).trans (w1p_at m c j k)
theorem blk11 (j k : Fin 172) : iblk m c 11 t (ix2 j k) = (m ((c : Thread nD τ).loc main_arg8)) (ix2 k ⟨172 + j.val, lt344_1 j⟩) :=
  (blk11_staged m c t j k).trans (w1s_at m c j k)
theorem blk13 (k d : Fin 172) : iblk m c 13 t (ix2 k d) = (m ((c : Thread nD τ).loc main_arg10)) (ix2 d k) :=
  (blk13_staged m c t k d).trans (w2_at m c k d)

end Blocks

/-! ## What a grid point writes back -/

/-- Point `t` writes back block `t` of the specification's array. -/
theorem flushed_eq (c : Dev nD) (t : Fin cfg0.N) :
    (dats m 0 c).flushed 15 t = ((cfg0.win 15).blk t).view.read (Elt Ideal) (G m c) := by
  rw [Value.flushed15]
  funext j
  obtain ⟨p, q, rfl⟩ : ∃ (p : Fin 128) (q : Fin 172), j = ix2 p q := ⟨j 0, j 1, eq_ix2 j⟩
  show out0_15 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 p q)
    = G m c (((cfg0.win 15).blk t).view.emb (ix2 p q))
  refine (Body.out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) p q).trans ?_
  have hemb : ((cfg0.win 15).blk t).view.emb (ix2 p q) = ix2 (⟨128 * t.val + p.val, row_lt t p⟩ : Fin 8192) q := by
    obtain ⟨e0, e1⟩ := idx15 t
    funext a; apply Fin.ext
    match a with
    | ⟨0, _⟩ => show win0_15.index t (0 : Fin 2) * 128 + 1 * p.val = 128 * t.val + p.val; omega
    | ⟨1, _⟩ => show win0_15.index t (1 : Fin 2) * 172 + 1 * q.val = q.val; omega
  rw [hemb]
  show _ = Whole.resultAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨128 * t.val + p.val, row_lt t p⟩ q
  unfold Whole.resultAt
  simp only [blk0, blk1, blk2, blk3, blk4, blk5, blk6, blk7, blk8, blk9, blk10, blk11, blk12, blk13, blk14]

/-! ## The blocks tile the array -/

theorem mem_blk (t : Fin cfg0.N) (i : S8192x172.Idx) :
    i ∈ ((cfg0.win 15).blk t).view.set ↔ ∀ a : Fin 2, win0_15.index t a * S128x172.size a ≤ (i a).val ∧ (i a).val < win0_15.index t a * S128x172.size a + S128x172.size a := by
  show i ∈ ((View.whole main_v12).slice (win0_15.rect t)).set ↔ _
  rw [View.set_slice_whole, Rect.mem_set_unit]
  exact Iff.rfl

/-- Row `b` is in the block of point `b / 128`. -/
theorem cover (i : S8192x172.Idx) : ∃ t : Fin cfg0.N, (cfg0.win 15).flush t = true ∧ i ∈ ((cfg0.win 15).blk t).view.set := by
  have hi0 : (i 0).val < 8192 := (i 0).isLt
  have hi1 : (i 1).val < 172 := (i 1).isLt
  have hN : (i 0).val / 128 < cfg0.N := by rw [show cfg0.N = 64 from N_0]; omega
  refine ⟨⟨(i 0).val / 128, hN⟩, flush0_15 _, ?_⟩
  rw [mem_blk]
  obtain ⟨e0, e1⟩ := idx15 ⟨(i 0).val / 128, hN⟩
  intro a
  match a with
  | ⟨0, _⟩ =>
    show win0_15.index ⟨(i 0).val / 128, hN⟩ (0 : Fin 2) * 128 ≤ (i 0).val ∧ (i 0).val < win0_15.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_15.index ⟨(i 0).val / 128, hN⟩ (1 : Fin 2) * 172 ≤ (i 1).val ∧ (i 1).val < win0_15.index ⟨(i 0).val / 128, hN⟩ (1 : Fin 2) * 172 + 172
    rw [e1]; omega

/-- The array after the run is the specification's. -/
theorem final (c : Dev nD) : (dats m 0 c).arrAt 15 cfg0.N = G m c :=
  (dats m 0 c).arrAt_eq_of_cover 15 (G m c) (fun t _ => flushed_eq m c t) cover

/-! ## The run, read -/

/-- Every weakly fair execution of the idealized kernel ends with the result array at the specification of the
    arguments as launched, and the arguments unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.KValue

end
-- ==== Proof.RefValue.lean ====
/-
  The reference's result array is the row specification, entry by entry.

  Read operation by operation at an index: the concatenation of the three feature arrays along the feature axis
  reads node features below 172, edge features from 172 and time features from 344, so the one contraction over 444
  positions is the three runs of RowSpec.lin; the product with the broadcast weight and then with the broadcast
  validity is RowSpec.act's product with `wg · vl`; the maximum-reduce over the neighbour axis from −∞ is the fold of
  `max` over the fifty neighbours; the concatenation of the pooled row with the node's own features splits the
  contraction over 344 positions into RowSpec.mid's two runs; the last product and bias are RowSpec.out.
-/
import proofs.«142474_j76166950028261_1_alg».proof.Proof.RefRead
import proofs.«142474_j76166950028261_1_alg».proof.Proof.RowSpec
import proofs.«142474_j76166950028261_1_alg».proof.Proof.Whole
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Cert Cert.RowSpec

variable (x0 : (⟨S8192x172, .f32⟩ : BufTy).Contents (Elt Ideal)) (x1 : (⟨S8192x50x172, .f32⟩ : BufTy).Contents (Elt Ideal)) (x2 : (⟨S8192x50x100, .f32⟩ : BufTy).Contents (Elt Ideal)) (x3 : (⟨S8192x50x172, .f32⟩ : BufTy).Contents (Elt Ideal)) (x4 : (⟨S8192x50, .i1⟩ : BufTy).Contents (Elt Ideal)) (x5 : (⟨S8192x50, .f32⟩ : BufTy).Contents (Elt Ideal)) (x6 : (⟨S172x444, .f32⟩ : BufTy).Contents (Elt Ideal)) (x7 : (⟨S172, .f32⟩ : BufTy).Contents (Elt Ideal)) (x8 : (⟨S172x344, .f32⟩ : BufTy).Contents (Elt Ideal)) (x9 : (⟨S172, .f32⟩ : BufTy).Contents (Elt Ideal)) (x10 : (⟨S172x172, .f32⟩ : BufTy).Contents (Elt Ideal)) (x11 : (⟨S172, .f32⟩ : BufTy).Contents (Elt Ideal))

/-! ## The concatenated feature axis, run by run -/

theorem cat_node (b : Fin 8192) (n : Fin 50) (j : Fin 172) (k : Fin 172) :
    val_main_v0 (F := Ideal) x1 x2 x3 (lidx_main_v1 (ix3 b n j) ⟨k.val, lt444_0 k⟩) = x1 (ix3 b n k) := by
  unfold val_main_v0
  exact concatenate_apply_piece (t := S8192x50x444) (2 : Fin 3) [⟨S8192x50x172, x1⟩, ⟨S8192x50x172, x3⟩, ⟨S8192x50x100, x2⟩] concatenates_S8192x50x172_S8192x50x172_S8192x50x100_S8192x50x444_d2 _ 0 (by show (0 : ℕ) < 3; omega) S8192x50x172 x1 rfl rfl 0 rfl (ix3 b n k)
    (fun ax hne => by
      match ax with
      | ⟨0, _⟩ => rfl
      | ⟨1, _⟩ => rfl
      | ⟨2, _⟩ => exact absurd rfl hne)
    (by show 0 + k.val = k.val; omega)

theorem cat_edge (b : Fin 8192) (n : Fin 50) (j : Fin 172) (k : Fin 172) :
    val_main_v0 (F := Ideal) x1 x2 x3 (lidx_main_v1 (ix3 b n j) ⟨172 + k.val, lt444_1 k⟩) = x3 (ix3 b n k) := by
  unfold val_main_v0
  exact concatenate_apply_piece (t := S8192x50x444) (2 : Fin 3) [⟨S8192x50x172, x1⟩, ⟨S8192x50x172, x3⟩, ⟨S8192x50x100, x2⟩] concatenates_S8192x50x172_S8192x50x172_S8192x50x100_S8192x50x444_d2 _ 1 (by show (1 : ℕ) < 3; omega) S8192x50x172 x3 rfl rfl 172 rfl (ix3 b n k)
    (fun ax hne => by
      match ax with
      | ⟨0, _⟩ => rfl
      | ⟨1, _⟩ => rfl
      | ⟨2, _⟩ => exact absurd rfl hne)
    (by show 172 + k.val = 172 + k.val; rfl)

theorem cat_time (b : Fin 8192) (n : Fin 50) (j : Fin 172) (k : Fin 100) :
    val_main_v0 (F := Ideal) x1 x2 x3 (lidx_main_v1 (ix3 b n j) ⟨344 + k.val, lt444_2 k⟩) = x2 (ix3 b n k) := by
  unfold val_main_v0
  exact concatenate_apply_piece (t := S8192x50x444) (2 : Fin 3) [⟨S8192x50x172, x1⟩, ⟨S8192x50x172, x3⟩, ⟨S8192x50x100, x2⟩] concatenates_S8192x50x172_S8192x50x172_S8192x50x100_S8192x50x444_d2 _ 2 (by show (2 : ℕ) < 3; omega) S8192x50x100 x2 rfl rfl 344 rfl (ix3 b n k)
    (fun ax hne => by
      match ax with
      | ⟨0, _⟩ => rfl
      | ⟨1, _⟩ => rfl
      | ⟨2, _⟩ => exact absurd rfl hne)
    (by show 344 + k.val = 344 + k.val; rfl)

/-- The transform's weight at the contraction's position `f`: row `j`, column `f`. -/
theorem wt_at (b : Fin 8192) (n : Fin 50) (j : Fin 172) (f : Fin 444) :
    x6 (ridx_main_v1 (ix3 b n j) f) = x6 (ix2 j f) :=
  congrArg x6 (funext fun a => by
    match a with
    | ⟨0, _⟩ => rfl
    | ⟨1, _⟩ => rfl)

/-! ## One neighbour -/

/-- The affine transform of neighbour `n` of row `b` at feature `j`. -/
theorem lin_eq (b : Fin 8192) (n : Fin 50) (j : Fin 172) :
    val_main_v4 (F := Ideal) x1 x2 x3 x6 x7 (ix3 b n j)
      = RowSpec.lin (fun n k => x1 (ix3 b n k)) (fun n k => x3 (ix3 b n k)) (fun n k => x2 (ix3 b n k))
          (fun j k => x6 (ix2 j ⟨k.val, lt444_0 k⟩)) (fun j k => x6 (ix2 j ⟨172 + k.val, lt444_1 k⟩))
          (fun j k => x6 (ix2 j ⟨344 + k.val, lt444_2 k⟩)) (fun j => x7 (ix1 j)) n j := by
  rw [val_main_v4_apply, val_main_v1_apply, val_main_v3_apply, val_main_v2_apply]
  have eb : idx_main_v2 (idx_main_v3 (ix3 b n j)) = ix1 j := funext fun a => by
    match a with
    | ⟨0, _⟩ => rfl
  rw [eb, Ideal.addf_def]
  exact RowSpec.lin_of_concat _ _ _ _ _ _ (fun j => x7 (ix1 j)) n j
    (fun f => val_main_v0 (F := Ideal) x1 x2 x3 (lidx_main_v1 (ix3 b n j) f)) (fun f => x6 (ridx_main_v1 (ix3 b n j) f))
    (fun k => cat_node x1 x2 x3 b n j k) (fun k => cat_edge x1 x2 x3 b n j k) (fun k => cat_time x1 x2 x3 b n j k)
    (fun k => wt_at x6 b n j _) (fun k => wt_at x6 b n j _) (fun k => wt_at x6 b n j _)

/-- Scaled by the weight and then by the validity, clamped at zero. -/
theorem act_eq (b : Fin 8192) (n : Fin 50) (j : Fin 172) :
    val_main_v13 (F := Ideal) x1 x2 x3 x4 x5 x6 x7 (ix3 b n j)
      = RowSpec.act (fun n k => x1 (ix3 b n k)) (fun n k => x3 (ix3 b n k)) (fun n k => x2 (ix3 b n k))
          (fun n => validOfBit (x4 (ix2 b n))) (fun n => x5 (ix2 b n))
          (fun j k => x6 (ix2 j ⟨k.val, lt444_0 k⟩)) (fun j k => x6 (ix2 j ⟨172 + k.val, lt444_1 k⟩))
          (fun j k => x6 (ix2 j ⟨344 + k.val, lt444_2 k⟩)) (fun j => x7 (ix1 j)) n j := by
  rw [val_main_v13_apply, val_main_v12_apply, val_main_v9_apply, lin_eq, val_main_v8_apply, val_main_v7_apply,
    val_main_v11_apply, val_main_v10_apply, val_main_v6_apply, val_main_v5_apply, val_main_call0_v0_apply,
    val_main_call0_cst_apply]
  have e5 : idx_main_v7 (idx_main_v8 (ix3 b n j)) = ix2 b n := funext fun a => by
    match a with
    | ⟨0, _⟩ => rfl
    | ⟨1, _⟩ => rfl
  have e4 : idx_main_v10 (idx_main_v11 (ix3 b n j)) = ix2 b n := funext fun a => by
    match a with
    | ⟨0, _⟩ => rfl
    | ⟨1, _⟩ => rfl
  rw [e5, e4, Ideal.maximumf_def, Ideal.mulf_def, Ideal.mulf_def, Ideal.ofBits_def, Ideal.ofBits_zero_f32]
  exact RowSpec.act_of_two_factors _ _ _ (fun n => validOfBit (x4 (ix2 b n))) (fun n => x5 (ix2 b n)) _ _ _ _ n j

/-! ## The maximum over the neighbours -/

theorem pool_eq (b : Fin 8192) (j : Fin 172) :
    val_main_v14 (F := Ideal) x1 x2 x3 x4 x5 x6 x7 (ix2 b j)
      = RowSpec.pool (fun n k => x1 (ix3 b n k)) (fun n k => x3 (ix3 b n k)) (fun n k => x2 (ix3 b n k))
          (fun n => validOfBit (x4 (ix2 b n))) (fun n => x5 (ix2 b n))
          (fun j k => x6 (ix2 j ⟨k.val, lt444_0 k⟩)) (fun j k => x6 (ix2 j ⟨172 + k.val, lt444_1 k⟩))
          (fun j k => x6 (ix2 j ⟨344 + k.val, lt444_2 k⟩)) (fun j => x7 (ix1 j)) j := by
  have hR : S8192x50x172.Reduces [1] S8192x172 := by decide
  unfold val_main_v14
  rw [Host.reduce_eq_fold_single FloatOps.maximumf _ _ reducesTo_S8192x50x172_S8192x172_d1 hR h_S_ (ix2 b j)]
  unfold RowSpec.pool
  show (Finset.univ : Finset (Fin 50)).fold max (Ideal.ofBits .f32 0xFF800000#32) _ = (Finset.univ : Finset (Fin 50)).fold max ⊥ _
  rw [RowSpec.ofBits_neg_inf]
  refine Finset.fold_congr fun n _ => ?_
  show val_main_v13 (F := Ideal) x1 x2 x3 x4 x5 x6 x7 (hR.lift (ix2 b j) n) = _
  have e : hR.lift (ix2 b j) n = ix3 b n j := funext fun a => Fin.ext (by
    match a with
    | ⟨0, _⟩ => rfl
    | ⟨1, _⟩ => rfl
    | ⟨2, _⟩ => rfl)
  rw [e]
  exact act_eq x1 x2 x3 x4 x5 x6 x7 b n j

/-! ## The merge layer -/

theorem mid_eq (b : Fin 8192) (k : Fin 172) :
    val_main_v21 (F := Ideal) x0 x1 x2 x3 x4 x5 x6 x7 x8 x9 (ix2 b k)
      = RowSpec.mid (fun n k => x1 (ix3 b n k)) (fun n k => x3 (ix3 b n k)) (fun n k => x2 (ix3 b n k))
          (fun n => validOfBit (x4 (ix2 b n))) (fun n => x5 (ix2 b n)) (fun k => x0 (ix2 b k))
          (fun j k => x6 (ix2 j ⟨k.val, lt444_0 k⟩)) (fun j k => x6 (ix2 j ⟨172 + k.val, lt444_1 k⟩))
          (fun j k => x6 (ix2 j ⟨344 + k.val, lt444_2 k⟩)) (fun j => x7 (ix1 j))
          (fun k j => x8 (ix2 k ⟨j.val, lt344_0 j⟩)) (fun k j => x8 (ix2 k ⟨172 + j.val, lt344_1 j⟩)) (fun k => x9 (ix1 k)) k := by
  rw [val_main_v21_apply, val_main_v20_apply, val_main_v17_apply, val_main_v19_apply, val_main_v18_apply,
    val_main_call1_v0_apply, val_main_call1_cst_apply]
  have eb : idx_main_v18 (idx_main_v19 (ix2 b k)) = ix1 k := funext fun a => by
    match a with
    | ⟨0, _⟩ => rfl
  rw [eb, Ideal.maximumf_def, Ideal.addf_def, Ideal.ofBits_def, Ideal.ofBits_zero_f32]
  refine RowSpec.mid_of_concat _ _ _ _ _ (fun k => x0 (ix2 b k)) _ _ _ _ _ _ (fun k => x9 (ix1 k)) k
    (fun f => val_main_v15 (F := Ideal) x0 x1 x2 x3 x4 x5 x6 x7 (lidx_main_v17 (ix2 b k) f))
    (fun f => val_main_v16 (F := Ideal) x8 (ridx_main_v17 (ix2 b k) f)) ?_ ?_ ?_ ?_
  · intro j
    show val_main_v15 (F := Ideal) x0 x1 x2 x3 x4 x5 x6 x7 (lidx_main_v17 (ix2 b k) ⟨j.val, lt344_0 j⟩) = _
    unfold val_main_v15
    exact (concatenate_pair_apply_left (t := S8192x344) (s₁ := S8192x172) (s₂ := S8192x172) (1 : Fin 2)
      (val_main_v14 (F := Ideal) x1 x2 x3 x4 x5 x6 x7) x0 concatenates_S8192x172_S8192x172_S8192x344_d1
      (lidx_main_v17 (ix2 b k) ⟨j.val, lt344_0 j⟩) rfl (ix2 b j)
      (fun ax => by
        match ax with
        | ⟨0, _⟩ => rfl
        | ⟨1, _⟩ => rfl)).trans (pool_eq x1 x2 x3 x4 x5 x6 x7 b j)
  · intro j
    show val_main_v15 (F := Ideal) x0 x1 x2 x3 x4 x5 x6 x7 (lidx_main_v17 (ix2 b k) ⟨172 + j.val, lt344_1 j⟩) = _
    unfold val_main_v15
    exact concatenate_pair_apply_right (t := S8192x344) (s₁ := S8192x172) (s₂ := S8192x172) (1 : Fin 2)
      (val_main_v14 (F := Ideal) x1 x2 x3 x4 x5 x6 x7) x0 concatenates_S8192x172_S8192x172_S8192x344_d1
      (lidx_main_v17 (ix2 b k) ⟨172 + j.val, lt344_1 j⟩) rfl rfl (ix2 b j)
      (fun ax hne => by
        match ax with
        | ⟨0, _⟩ => rfl
        | ⟨1, _⟩ => exact absurd rfl hne)
      (by show j.val + 172 = 172 + j.val; omega)
  · intro j
    show val_main_v16 (F := Ideal) x8 (ridx_main_v17 (ix2 b k) ⟨j.val, lt344_0 j⟩) = _
    rw [val_main_v16_apply]
    exact congrArg x8 (funext fun a => by
      match a with
      | ⟨0, _⟩ => rfl
      | ⟨1, _⟩ => rfl)
  · intro j
    show val_main_v16 (F := Ideal) x8 (ridx_main_v17 (ix2 b k) ⟨172 + j.val, lt344_1 j⟩) = _
    rw [val_main_v16_apply]
    exact congrArg x8 (funext fun a => by
      match a with
      | ⟨0, _⟩ => rfl
      | ⟨1, _⟩ => rfl)

/-! ## The result -/

/-- The reference's result array is the specification's. -/
theorem ref_value :
    val_main_v26 (F := Ideal) x0 x1 x2 x3 x4 x5 x6 x7 x8 x9 x10 x11 = Whole.result x0 x1 x2 x3 x4 x5 x6 x7 x8 x9 x10 x11 := by
  funext i
  obtain ⟨b, d, rfl⟩ : ∃ (b : Fin 8192) (d : Fin 172), i = ix2 b d := ⟨i 0, i 1, eq_ix2 i⟩
  rw [val_main_v26_apply, val_main_v23_apply, val_main_v25_apply, val_main_v24_apply]
  have eb : idx_main_v24 (idx_main_v25 (ix2 b d)) = ix1 d := funext fun a => by
    match a with
    | ⟨0, _⟩ => rfl
  rw [eb, Ideal.addf_def]
  show _ = Whole.resultAt x0 x1 x2 x3 x4 x5 x6 x7 x8 x9 x10 x11 b d
  unfold Whole.resultAt RowSpec.out
  refine congrArg (· + x11 (ix1 d)) (Finset.sum_congr rfl fun k _ => ?_)
  have el : lidx_main_v23 (ix2 b d) k = ix2 b k := funext fun a => by
    match a with
    | ⟨0, _⟩ => rfl
    | ⟨1, _⟩ => rfl
  have er : idx_main_v22 (ridx_main_v23 (ix2 b d) k) = ix2 d k := funext fun a => by
    match a with
    | ⟨0, _⟩ => rfl
    | ⟨1, _⟩ => rfl
  rw [el, mid_eq, val_main_v22_apply, er]

end Cert.ReferenceIdeal.RefValue

end
-- ==== Proof.lean ====
/-
  The certificate of a temporal-graph attention layer's neighbour pooling: a Pallas kernel against its jnp reference.

  Both programs compute, for each of 8192 batch rows, the row specification of Proof/RowSpec.lean: every one of the
  row's fifty neighbours is sent through a linear transform of its concatenated node, edge and time features, scaled by
  its weight and by the validity of its padding-mask bit, clamped at zero; the maximum over the neighbours is
  concatenated with the row's own features and sent through the two-layer merge.
  • The kernel (Proof/KBody.lean … Proof/KValue.lean) works on tiles of 128 rows. Its printed body spells the fifty
    neighbours out one after the other; it IS the fold of one step over the list of neighbours, and read at an index
    the fold is the specification of the tile's rows. The host cuts and transposes the weights and widens the mask
    before the launch; sixty-four tiles cover the array.
  • The reference (Proof/RefValue.lean) is read operation by operation at an index; its contractions over the
    concatenated axes split into the kernel's runs and its two successive scalings re-associate into the kernel's one.
  The two spellings agree on all extended reals (a finite sum may be cut into runs, a product re-associated), so the
  precondition is not used for the values. The frames of the two kernel programs are the generated ones; the
  reference's frame is its run with the result dropped. The ideal pass rewrote nothing, so `preserves` is `True`.
-/
import proofs.«142474_j76166950028261_1_alg».proof.Defs
import proofs.«142474_j76166950028261_1_alg».proof.Proof.Gen.Kernel
import proofs.«142474_j76166950028261_1_alg».proof.Proof.Gen.Kernel.Skeleton
import proofs.«142474_j76166950028261_1_alg».proof.Proof.Gen.Kernel.Launch
import proofs.«142474_j76166950028261_1_alg».proof.Proof.Gen.Kernel.Points
import proofs.«142474_j76166950028261_1_alg».proof.Proof.Gen.Kernel.Frame
import proofs.«142474_j76166950028261_1_alg».proof.Proof.Gen.KernelIdeal
import proofs.«142474_j76166950028261_1_alg».proof.Proof.Gen.KernelIdeal.Skeleton
import proofs.«142474_j76166950028261_1_alg».proof.Proof.Gen.KernelIdeal.Launch
import proofs.«142474_j76166950028261_1_alg».proof.Proof.Gen.KernelIdeal.Points
import proofs.«142474_j76166950028261_1_alg».proof.Proof.Gen.KernelIdeal.Frame
import proofs.«142474_j76166950028261_1_alg».proof.Proof.Gen.ReferenceIdeal
import proofs.«142474_j76166950028261_1_alg».proof.Proof.Gen.KernelIdeal.Value
import proofs.«142474_j76166950028261_1_alg».proof.Proof.RefRead
import proofs.«142474_j76166950028261_1_alg».proof.Proof.KValue
import proofs.«142474_j76166950028261_1_alg».proof.Proof.RefValue
import proofs.«142474_j76166950028261_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at the row specification of the (agreeing) argument arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.ReadP.val_main_v26_eq, Cert.ReferenceIdeal.RefValue.ref_value, h0, h1, h2, h3, h4, h5, h6, h7, h8, h9,
    h10, h11]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
